-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024x16 : Shape := ⟨2, ![1024, 16]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x16 : S_.BroadcastsInDim S1024x16 (![] : Fin 0 → Fin S1024x16.rank)
  reducesTo_S1024x16_S_d0_1 : S1024x16.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1x1024 .f32) (main_arg5 : FVec F S1024x1024 .f32) (main_arg6 : FVec F S1024 .f32) (main_arg7 : FVec F S1024x1024 .f32) (main_arg8 : FVec F S1024 .f32) (main_v13 : IVec S_ 1) (main_v16 : IVec S1024x16 1) : IVec S_ 1 :=
  let main_c_5 : IVec S_ 1 := constantI S_ 1 1#1
  let main_v17 : IVec S_ 1 := (fun x v => Host.reduce IntOp.andi x v reducesTo_S1024x16_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S8x4096x1024 .f32) (main_arg1 : FVec F S8x4096x1024 .f32) (main_arg2 : FVec F S1024x16 .f32) (main_arg3 : FVec F S1024x16 .f32) (main_arg4 : FVec F S1x1024 .f32) (main_arg5 : FVec F S1024x1024 .f32) (main_arg6 : FVec F S1024 .f32) (main_arg7 : FVec F S1024x1024 .f32) (main_arg8 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S1024x16 .f32 := Host.absf main_arg2
  let main_cst_2 : FVec F S_ .f32 := constant S_ .f32 0x7F800000#32
  let main_v10 : FVec F S1024x16 .f32 := broadcastInDim S1024x16 ![] bcast_S_S1024x16 main_cst_2
  let main_v11 : IVec S1024x16 1 := cmpf .olt main_v9 main_v10
  let main_c_3 : IVec S_ 1 := constantI S_ 1 1#1
  let main_v12 : IVec S_ 1 := (fun x v => Host.reduce IntOp.andi x v reducesTo_S1024x16_S_d0_1 h_S_) main_v11 main_c_3
  let main_v13 : IVec S_ 1 := andi main_v8 main_v12
  let main_v14 : FVec F S1024x16 .f32 := Host.absf main_arg3
  let main_cst_4 : FVec F S_ .f32 := constant S_ .f32 0x7F800000#32
  let main_v15 : FVec F S1024x16 .f32 := broadcastInDim S1024x16 ![] bcast_S_S1024x16 main_cst_4
  let main_v16 : IVec S1024x16 1 := cmpf .olt main_v14 main_v15
  fn_part1 (F := F) main_arg4 main_arg5 main_arg6 main_arg7 main_arg8 main_v13 main_v16
-- ==== Kernel.lean ====
abbrev S8x4096x1024 : Shape := ⟨3, ![8, 4096, 1024]⟩
abbrev S1024x16 : Shape := ⟨2, ![1024, 16]⟩
abbrev S1x1024 : Shape := ⟨2, ![1, 1024]⟩
abbrev S1024x1024 : Shape := ⟨2, ![1024, 1024]⟩
abbrev S1024 : Shape := ⟨1, ![1024]⟩
abbrev S32768x1024 : Shape := ⟨2, ![32768, 1024]⟩
abbrev S16x1024 : Shape := ⟨2, ![16, 1024]⟩
abbrev S1024x1 : Shape := ⟨2, ![1024, 1]⟩
abbrev S256x1024 : Shape := ⟨2, ![256, 1024]⟩
abbrev S256x16 : Shape := ⟨2, ![256, 16]⟩
abbrev S256 : Shape := ⟨1, ![256]⟩
abbrev S256x1 : Shape := ⟨2, ![256, 1]⟩

abbrev nBuf : Space → Nat
  | .hbm => 24
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1024x16, .f32⟩
  | .hbm, ⟨3, _⟩ => ⟨S1024x16, .f32⟩
  | .hbm, ⟨4, _⟩ => ⟨S1x1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S32768x1024, .f32⟩
  | .hbm, ⟨10, _⟩ => ⟨S32768x1024, .f32⟩
  | .hbm, ⟨11, _⟩ => ⟨S1024x16, .bf16⟩
  | .hbm, ⟨12, _⟩ => ⟨S16x1024, .f32⟩
  | .hbm, ⟨13, _⟩ => ⟨S16x1024, .bf16⟩
  | .hbm, ⟨14, _⟩ => ⟨S1024x1, .f32⟩
  | .hbm, ⟨15, _⟩ => ⟨S1024x1, .bf16⟩
  | .hbm, ⟨16, _⟩ => ⟨S1024x1024, .f32⟩
  | .hbm, ⟨17, _⟩ => ⟨S1024x1024, .bf16⟩
  | .hbm, ⟨18, _⟩ => ⟨S1024x1024, .f32⟩
  | .hbm, ⟨19, _⟩ => ⟨S1024x1024, .bf16⟩
  | .hbm, ⟨20, _⟩ => ⟨S1x1024, .f32⟩
  | .hbm, ⟨21, _⟩ => ⟨S1x1024, .f32⟩
  | .hbm, ⟨22, _⟩ => ⟨S32768x1024, .f32⟩
  | .hbm, ⟨23, _⟩ => ⟨S8x4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x16, .bf16⟩
  | .local _ .vmem, ⟨5, _⟩ => ⟨S16x1024, .bf16⟩
  | .local _ .vmem, ⟨6, _⟩ => ⟨S1024x1, .bf16⟩
  | .local _ .vmem, ⟨7, _⟩ => ⟨S1024x1024, .bf16⟩
  | .local _ .vmem, ⟨8, _⟩ => ⟨S1x1024, .f32⟩
  | .local _ .vmem, ⟨9, _⟩ => ⟨S1024x1024, .bf16⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S8x4096x1024_S32768x1024 : S8x4096x1024.ShapeCasts S32768x1024
  bitsLt_bf16_f32 : FTy.bits .bf16 < FTy.bits .f32
  transposes_S1024x16_S16x1024_1_0 : S1024x16.Transposes [1, 0] S16x1024
  transposes_S1x1024_S1024x1_1_0 : S1x1024.Transposes [1, 0] S1024x1
  transposes_S1024x1024_S1024x1024_1_0 : S1024x1024.Transposes [1, 0] S1024x1024
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  reduces_S256x16_S256 : S256x16.Reduces [1] S256
  shapeCasts_S256_S256x1 : S256.ShapeCasts S256x1
  broadcasts_S256x1_S256x16 : S256x1.Broadcasts S256x16
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S256x1_S256x1024 : S256x1.Broadcasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  reduces_S256x1024_S256 : S256x1024.Reduces [1] S256
  natLt_1_32 : 1 < 32
  shapeCasts_S32768x1024_S8x4096x1024 : S32768x1024.ShapeCasts S8x4096x1024
  dot_S256x1024_S1024x16_S256x16_1_0_0_1_n_n_wf : DotDims.WF S256x1024 S1024x16 S256x16 [1] [0] [0] [1] [] []
  dot_S256x16_S16x1024_S256x1024_1_0_0_1_n_n_wf : DotDims.WF S256x16 S16x1024 S256x1024 [1] [0] [0] [1] [] []
  dot_S256x1024_S1024x1_S256x1_1_0_0_1_n_n_wf : DotDims.WF S256x1024 S1024x1 S256x1 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S32768x1024.size a
  hwx0_0 : ∀ i : grid0.Coords, EltTy.bits .f32 = 32 ∨ (Rect.block (s := S32768x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S32768x1024.size a
  hwx0_1 : ∀ i : grid0.Coords, EltTy.bits .f32 = 32 ∨ (Rect.block (s := S32768x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S1024x16.size a
  hwx0_2 : ∀ i : grid0.Coords, EltTy.bits .bf16 = 32 ∨ (Rect.block (s := S1024x16) S1024x16.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x1024.size a
  hwx0_3 : ∀ i : grid0.Coords, EltTy.bits .bf16 = 32 ∨ (Rect.block (s := S16x1024) S16x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S1024x1.size a
  hwx0_4 : ∀ i : grid0.Coords, EltTy.bits .bf16 = 32 ∨ (Rect.block (s := S1024x1) S1024x1.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S32768x1024.size a
  hwx0_9 : ∀ i : grid0.Coords, EltTy.bits .f32 = 32 ∨ (Rect.block (s := S32768x1024) S256x1024.size (cc0_transform_9 i) (hinb0_9 i)).WholeWords (EltTy.packing .f32)

variable [Facts₀]

def dot_S256x1024_S1024x16_S256x16_1_0_0_1_n_n : DotDims S256x1024 S1024x16 S256x16 where
  lhsContracting := [1]
  rhsContracting := [0]
  lhsNonContracting := [0]
  rhsNonContracting := [1]
  lhsBatch := []
  rhsBatch := []
  wf := dot_S256x1024_S1024x16_S256x16_1_0_0_1_n_n_wf
def dot_S256x16_S16x1024_S256x1024_1_0_0_1_n_n : DotDims S256x16 S16x1024 S256x1024 where
  lhsContracting := [1]
  rhsContracting := [0]
  lhsNonContracting := [0]
  rhsNonContracting := [1]
  lhsBatch := []
  rhsBatch := []
  wf := dot_S256x16_S16x1024_S256x1024_1_0_0_1_n_n_wf
def dot_S256x1024_S1024x1_S256x1_1_0_0_1_n_n : DotDims S256x1024 S1024x1 S256x1 where
  lhsContracting := [1]
  rhsContracting := [0]
  lhsNonContracting := [0]
  rhsNonContracting := [1]
  lhsBatch := []
  rhsBatch := []
  wf := dot_S256x1024_S1024x1_S256x1_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S16x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S256x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S1024x16 : Shape := ⟨2, ![1024, 16]⟩
abbrev S1x1024 : Shape := ⟨2, ![1, 1024]⟩
abbrev S1024x1024 : Shape := ⟨2, ![1024, 1024]⟩
abbrev S1024 : Shape := ⟨1, ![1024]⟩
abbrev S8x4096x16 : Shape := ⟨3, ![8, 4096, 16]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 102
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1024x16, .f32⟩
  | .hbm, ⟨3, _⟩ => ⟨S1024x16, .f32⟩
  | .hbm, ⟨4, _⟩ => ⟨S1x1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S8x4096x16, .f32⟩
  | .hbm, ⟨10, _⟩ => ⟨S8x4096x16, .f32⟩
  | .hbm, ⟨11, _⟩ => ⟨S_, .f32⟩
  | .hbm, ⟨12, _⟩ => ⟨S8x4096, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S8x4096x16, .f32⟩
  | .hbm, ⟨22, _⟩ => ⟨S8x4096x16, .f32⟩
  | .hbm, ⟨23, _⟩ => ⟨S8x4096x16, .f32⟩
  | .hbm, ⟨24, _⟩ => ⟨S8x4096x1024, .f32⟩
  | .hbm, ⟨25, _⟩ => ⟨S8x4096x1, .f32⟩
  | .hbm, ⟨26, _⟩ => ⟨S8x4096x1, .f32⟩
  | .hbm, ⟨27, _⟩ => ⟨S8x4096x1, .f32⟩
  | .hbm, ⟨28, _⟩ => ⟨S_, .f32⟩
  | .hbm, ⟨29, _⟩ => ⟨S8x4096x1, .f32⟩
  | .hbm, ⟨30, _⟩ => ⟨S8x4096x1, .f32⟩
  | .hbm, ⟨31, _⟩ => ⟨S_, .f32⟩
  | .hbm, ⟨32, _⟩ => ⟨S8x4096x1, .f32⟩
  | .hbm, ⟨33, _⟩ => ⟨S8x4096x1, .f32⟩
  | .hbm, ⟨34, _⟩ => ⟨S_, .f32⟩
  | .hbm, ⟨35, _⟩ => ⟨S8x4096x1, .f32⟩
  | .hbm, ⟨36, _⟩ => ⟨S8x4096x1, .f32⟩
  | .hbm, ⟨37, _⟩ => ⟨S8x4096x1024, .f32⟩
  | .hbm, ⟨38, _⟩ => ⟨S8x4096x1024, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S8x4096x1024, .f32⟩
  | .hbm, ⟨43, _⟩ => ⟨S8x4096x1024, .f32⟩
  | .hbm, ⟨44, _⟩ => ⟨S_, .f32⟩
  | .hbm, ⟨45, _⟩ => ⟨S8x4096x1024, .f32⟩
  | .hbm, ⟨46, _⟩ => ⟨S8x4096x1024, .f32⟩
  | .hbm, ⟨47, _⟩ => ⟨S8x4096x1024, .f32⟩
  | .hbm, ⟨48, _⟩ => ⟨S1x1x1024, .f32⟩
  | .hbm, ⟨49, _⟩ => ⟨S8x4096x1024, .f32⟩
  | .hbm, ⟨50, _⟩ => ⟨S8x4096x1024, .f32⟩
  | .hbm, ⟨51, _⟩ => ⟨S8x4096x1024, .f32⟩
  | .hbm, ⟨52, _⟩ => ⟨S8x4096x1024, .f32⟩
  | .hbm, ⟨53, _⟩ => ⟨S_, .f32⟩
  | .hbm, ⟨54, _⟩ => ⟨S8x4096x1024, .f32⟩
  | .hbm, ⟨55, _⟩ => ⟨S8x4096x1024, .f32⟩
  | .hbm, ⟨56, _⟩ => ⟨S_, .f32⟩
  | .hbm, ⟨57, _⟩ => ⟨S8x4096x1024, .f32⟩
  | .hbm, ⟨58, _⟩ => ⟨S8x4096x1024, .f32⟩
  | .hbm, ⟨59, _⟩ => ⟨S8x4096x1024, .f32⟩
  | .hbm, ⟨60, _⟩ => ⟨S8x4096x1024, .f32⟩
  | .hbm, ⟨61, _⟩ => ⟨S1x1x1024, .f32⟩
  | .hbm, ⟨62, _⟩ => ⟨S8x4096x1024, .f32⟩
  | .hbm, ⟨63, _⟩ => ⟨S8x4096x1024, .f32⟩
  | .hbm, ⟨64, _⟩ => ⟨S8x4096x1024, .f32⟩
  | .hbm, ⟨65, _⟩ => ⟨S8x4096x1024, .f32⟩
  | .hbm, ⟨66, _⟩ => ⟨S_, .f32⟩
  | .hbm, ⟨67, _⟩ => ⟨S8x4096x1024, .f32⟩
  | .hbm, ⟨68, _⟩ => ⟨S8x4096x1024, .f32⟩
  | .hbm, ⟨69, _⟩ => ⟨S_, .f32⟩
  | .hbm, ⟨70, _⟩ => ⟨S8x4096x1024, .f32⟩
  | .hbm, ⟨71, _⟩ => ⟨S8x4096x1024, .f32⟩
  | .hbm, ⟨72, _⟩ => ⟨S8x4096x1024, .f32⟩
  | .hbm, ⟨73, _⟩ => ⟨S8x4096x1024, .f32⟩
  | .hbm, ⟨74, _⟩ => ⟨S8x4096x1024, .f32⟩
  | .hbm, ⟨75, _⟩ => ⟨S_, .f32⟩
  | .hbm, ⟨76, _⟩ => ⟨S8x4096, .f32⟩
  | .hbm, ⟨77, _⟩ => ⟨S8x4096x1, .f32⟩
  | .hbm, ⟨78, _⟩ => ⟨S_, .f32⟩
  | .hbm, ⟨79, _⟩ => ⟨S8x4096x1, .f32⟩
  | .hbm, ⟨80, _⟩ => ⟨S8x4096x1, .f32⟩
  | .hbm, ⟨81, _⟩ => ⟨S8x4096x1, .f32⟩
  | .hbm, ⟨82, _⟩ => ⟨S_, .f32⟩
  | .hbm, ⟨83, _⟩ => ⟨S8x4096x1, .f32⟩
  | .hbm, ⟨84, _⟩ => ⟨S8x4096x1, .f32⟩
  | .hbm, ⟨85, _⟩ => ⟨S_, .f32⟩
  | .hbm, ⟨86, _⟩ => ⟨S8x4096x1, .f32⟩
  | .hbm, ⟨87, _⟩ => ⟨S8x4096x1, .f32⟩
  | .hbm, ⟨88, _⟩ => ⟨S8x4096x1024, .f32⟩
  | .hbm, ⟨89, _⟩ => ⟨S8x4096x1024, .f32⟩
  | .hbm, ⟨90, _⟩ => ⟨S_, .f32⟩
  | .hbm, ⟨91, _⟩ => ⟨S8x4096x1, .f32⟩
  | .hbm, ⟨92, _⟩ => ⟨S8x4096x1, .i1⟩
  | .hbm, ⟨93, _⟩ => ⟨S8x4096x1, .f32⟩
  | .hbm, ⟨94, _⟩ => ⟨S_, .f32⟩
  | .hbm, ⟨95, _⟩ => ⟨S8x4096x1, .f32⟩
  | .hbm, ⟨96, _⟩ => ⟨S8x4096x1, .f32⟩
  | .hbm, ⟨97, _⟩ => ⟨S_, .f32⟩
  | .hbm, ⟨98, _⟩ => ⟨S8x4096x1, .f32⟩
  | .hbm, ⟨99, _⟩ => ⟨S8x4096x1, .f32⟩
  | .hbm, ⟨100, _⟩ => ⟨S8x4096x1024, .f32⟩
  | .hbm, ⟨101, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_cst_5 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_6 : Ref sig .tc := ⟨.hbm, 53, rfl⟩
abbrev main_v28 : Ref sig .tc := ⟨.hbm, 54, rfl⟩
abbrev main_v29 : Ref sig .tc := ⟨.hbm, 55, rfl⟩
abbrev main_cst_7 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_8 : Ref sig .tc := ⟨.hbm, 66, rfl⟩
abbrev main_v39 : Ref sig .tc := ⟨.hbm, 67, rfl⟩
abbrev main_v40 : Ref sig .tc := ⟨.hbm, 68, rfl⟩
abbrev main_cst_9 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_10 : Ref sig .tc := ⟨.hbm, 75, rfl⟩
abbrev main_v46 : Ref sig .tc := ⟨.hbm, 76, rfl⟩
abbrev main_v47 : Ref sig .tc := ⟨.hbm, 77, rfl⟩
abbrev main_cst_11 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_12 : Ref sig .tc := ⟨.hbm, 82, rfl⟩
abbrev main_v51 : Ref sig .tc := ⟨.hbm, 83, rfl⟩
abbrev main_v52 : Ref sig .tc := ⟨.hbm, 84, rfl⟩
abbrev main_cst_13 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_14 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_15 : Ref sig .tc := ⟨.hbm, 94, rfl⟩
abbrev main_v60 : Ref sig .tc := ⟨.hbm, 95, rfl⟩
abbrev main_v61 : Ref sig .tc := ⟨.hbm, 96, rfl⟩
abbrev main_cst_16 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩

abbrev nD : Nat := 1
abbrev τ : Topo := Topo.v7x

variable {F : FTy → Type} [FloatOps F]

class Facts₀ : Prop where
  reducesTo_S8x4096x16_S8x4096_d2 : S8x4096x16.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x16_0_1_2 : S8x4096x1.BroadcastsInDim S8x4096x16 (![0, 1, 2] : Fin 3 → Fin S8x4096x16.rank)
  bcast_S8x4096x1_S8x4096x1024_0_1_2 : S8x4096x1.BroadcastsInDim S8x4096x1024 (![0, 1, 2] : Fin 3 → Fin S8x4096x1024.rank)
  bcast_S_S8x4096x1024 : S_.BroadcastsInDim S8x4096x1024 (![] : Fin 0 → Fin S8x4096x1024.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  reducesTo_S8x4096x1024_S8x4096_d2 : S8x4096x1024.ReducesTo [2] S8x4096
  dot_S8x4096x1024_S1024x16_S8x4096x16_2_0_01_1_n_n_wf : DotDims.WF S8x4096x1024 S1024x16 S8x4096x16 [2] [0] [0, 1] [1] [] []
  dot_S8x4096x16_S1024x16_S8x4096x1024_2_1_01_0_n_n_wf : DotDims.WF S8x4096x16 S1024x16 S8x4096x1024 [2] [1] [0, 1] [0] [] []
  dot_S8x4096x1024_S1x1024_S8x4096x1_2_1_01_0_n_n_wf : DotDims.WF S8x4096x1024 S1x1024 S8x4096x1 [2] [1] [0, 1] [0] [] []
  dot_S8x4096x1024_S1024x1024_S8x4096x1024_2_1_01_0_n_n_wf : DotDims.WF S8x4096x1024 S1024x1024 S8x4096x1024 [2] [1] [0, 1] [0] [] []

variable [Facts₀]

def dot_S8x4096x1024_S1024x16_S8x4096x16_2_0_01_1_n_n : DotDims S8x4096x1024 S1024x16 S8x4096x16 where
  lhsContracting := [2]
  rhsContracting := [0]
  lhsNonContracting := [0, 1]
  rhsNonContracting := [1]
  lhsBatch := []
  rhsBatch := []
  wf := dot_S8x4096x1024_S1024x16_S8x4096x16_2_0_01_1_n_n_wf
def dot_S8x4096x16_S1024x16_S8x4096x1024_2_1_01_0_n_n : DotDims S8x4096x16 S1024x16 S8x4096x1024 where
  lhsContracting := [2]
  rhsContracting := [1]
  lhsNonContracting := [0, 1]
  rhsNonContracting := [0]
  lhsBatch := []
  rhsBatch := []
  wf := dot_S8x4096x16_S1024x16_S8x4096x1024_2_1_01_0_n_n_wf
def dot_S8x4096x1024_S1x1024_S8x4096x1_2_1_01_0_n_n : DotDims S8x4096x1024 S1x1024 S8x4096x1 where
  lhsContracting := [2]
  rhsContracting := [1]
  lhsNonContracting := [0, 1]
  rhsNonContracting := [0]
  lhsBatch := []
  rhsBatch := []
  wf := dot_S8x4096x1024_S1x1024_S8x4096x1_2_1_01_0_n_n_wf
def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf

class Facts : Prop extends Facts₀ where

variable [Facts]
-- ==== Proof.RowForm.lean ====
/-
  One row of the low-rank quadratic form with its gates, over the extended reals.

  For one row `vr` of the velocity and the matching row `xr` of the position (1024 entries each) the result at
  column `d` is

    ( clip₅( (∑ₖ pₖ² · s · W d k) · (1 + π) ) · σ(⟨xr, Gw d⟩ + gb d)  +  σ(⟨xr, Fw d⟩ + fb d) · vr d )
      · (1 + ½ · tanh(⟨vr, vr⟩ / 1024)) · (1 + 9 · [π > 0.8])

  with pₖ = ⟨vr, U · k⟩ the sixteen projections, s = 1 / (1 + ‖p‖), π = σ(⟨xr, Vw⟩) and σ the logistic function
  written as the quotient 1 / (1 + e^{-t}). A float literal stays the pattern it is spelt with; each sum over a
  row starts from the literal zero, as a reduction with an initial value does.
-/
import Idealize.ShloMosaic.PureOps.Ideal
import Idealize.ShloMosaic.PureOps.Ideal.Laws
import Idealize.ShloMosaic.Lib.ValueIdx
import Mathlib.Tactic.NormNum

noncomputable section

namespace Cert.RowForm

open Idealize.ShloMosaic
open scoped BigOperators

/-- The literal `0.0`. -/
abbrev c0 : EReal := Ideal.ofBits .f32 0x00000000#32
/-- The literal `1.0`. -/
abbrev c1 : EReal := Ideal.ofBits .f32 0x3F800000#32

/-- The logistic function as the quotient `1 / (1 + e^{-t})`. -/
def sigm (t : EReal) : EReal := Ideal.div c1 (c1 + Ideal.exp (-t))

/-- The sixteen projections of a row on the columns of `U`. -/
def proj (vr : Fin 1024 → EReal) (U : Fin 1024 → Fin 16 → EReal) (k : Fin 16) : EReal :=
  ∑ j : Fin 1024, vr j * U j k

/-- `1 / (1 + ‖p‖)`, the norm the square root of the sum of squares. -/
def scale (p : Fin 16 → EReal) : EReal :=
  Ideal.div c1 (c1 + Ideal.sqrt (c0 + ∑ k : Fin 16, p k * p k))

/-- The damped squares `pₖ² · s` carried back through `W`. -/
def quad (p : Fin 16 → EReal) (W : Fin 1024 → Fin 16 → EReal) (d : Fin 1024) : EReal :=
  ∑ k : Fin 16, (p k * p k * scale p) * W d k

/-- The potential `σ(⟨xr, Vw⟩)` of a row. -/
def potential (xr Vw : Fin 1024 → EReal) : EReal := sigm (∑ j : Fin 1024, xr j * Vw j)

/-- A gate `σ(⟨xr, w d⟩ + b d)`. -/
def gate (xr : Fin 1024 → EReal) (w : Fin 1024 → Fin 1024 → EReal) (b : Fin 1024 → EReal) (d : Fin 1024) : EReal :=
  sigm ((∑ j : Fin 1024, xr j * w d j) + b d)

/-- Clamping to `[-5, 5]`: the lower bound first. -/
def clip5 (y : EReal) : EReal :=
  min (Ideal.ofBits .f32 0x40A00000#32) (max (Ideal.ofBits .f32 0xC0A00000#32) y)

/-- `1 + ½ · tanh(⟨vr, vr⟩ / 1024)`. -/
def plastic (vr : Fin 1024 → EReal) : EReal :=
  c1 + Ideal.ofBits .f32 0x3F000000#32
    * Ideal.tanh (Ideal.div (c0 + ∑ j : Fin 1024, vr j * vr j) (Ideal.ofBits .f32 0x44800000#32))

/-- `1 + 9 · [π > 0.8]`, the bracket the comparison's bit read as a number. -/
def boost (π : EReal) : EReal :=
  c1 + (((Ideal.cmp .ogt π (Ideal.ofBits .f32 0x3F4CCCCD#32)).toNat : ℝ) : EReal) * Ideal.ofBits .f32 0x41100000#32

/-- The row's result at column `d`. -/
def rowOut (vr xr : Fin 1024 → EReal) (U W : Fin 1024 → Fin 16 → EReal) (Vw : Fin 1024 → EReal)
    (Gw : Fin 1024 → Fin 1024 → EReal) (gb : Fin 1024 → EReal) (Fw : Fin 1024 → Fin 1024 → EReal) (fb : Fin 1024 → EReal)
    (d : Fin 1024) : EReal :=
  ((clip5 (quad (proj vr U) W d * (c1 + potential xr Vw)) * gate xr Gw gb d + gate xr Fw fb d * vr d)
      * plastic vr)
    * boost (potential xr Vw)

/-- The whole result: entry (b, s, d) is the row form of row (b, s) of the velocity and of the position at column d,
    each weight matrix read by row and column as it is given. -/
def whole (v x : (⟨3, ![8, 4096, 1024]⟩ : Shape).Idx → EReal) (U W : (⟨2, ![1024, 16]⟩ : Shape).Idx → EReal)
    (Vw : (⟨2, ![1, 1024]⟩ : Shape).Idx → EReal) (Gw : (⟨2, ![1024, 1024]⟩ : Shape).Idx → EReal)
    (gb : (⟨1, ![1024]⟩ : Shape).Idx → EReal) (Fw : (⟨2, ![1024, 1024]⟩ : Shape).Idx → EReal)
    (fb : (⟨1, ![1024]⟩ : Shape).Idx → EReal) : (⟨3, ![8, 4096, 1024]⟩ : Shape).Idx → EReal := fun i =>
  rowOut (fun j => v (ValueIdx.ix3 (⟨(i 0).val, (i 0).isLt⟩ : Fin 8) (⟨(i 1).val, (i 1).isLt⟩ : Fin 4096) j))
    (fun j => x (ValueIdx.ix3 (⟨(i 0).val, (i 0).isLt⟩ : Fin 8) (⟨(i 1).val, (i 1).isLt⟩ : Fin 4096) j))
    (fun j k => U (ValueIdx.ix2 j k)) (fun d k => W (ValueIdx.ix2 d k)) (fun j => Vw (ValueIdx.ix2 (0 : Fin 1) j))
    (fun d j => Gw (ValueIdx.ix2 d j)) (fun d => gb (ValueIdx.ix1 d)) (fun d j => Fw (ValueIdx.ix2 d j))
    (fun d => fb (ValueIdx.ix1 d)) (⟨(i 2).val, (i 2).isLt⟩ : Fin 1024)

/-! ### The three small identities by which the two programs' spellings meet -/

/-- The literal `0.0` is zero, so a sum started from it is the sum. -/
theorem c0_add (y : EReal) : c0 + y = y := by
  show Ideal.ofBits .f32 0x00000000#32 + y = y
  rw [Ideal.ofBits_zero_f32, zero_add]

/-- The literal `1.0` is one. -/
theorem c1_eq_one : c1 = 1 := by
  have h : Ideal.ofBits .f32 0x3F800000#32 = ((1 : ℝ) : EReal) := by
    simp [Ideal.ofBits, Ideal.ieee, -EReal.coe_mul]; norm_num
  exact h.trans EReal.coe_one

/-- The logistic function IS that quotient. -/
theorem logistic_eq_sigm (t : EReal) : Ideal.logistic t = sigm t := by
  unfold sigm Ideal.logistic
  rw [c1_eq_one]

/-- A comparison's bit widened to 32 bits and read as a signed integer is the bit read as a natural number. -/
theorem bit_toInt_eq_toNat (b : BitVec 1) : (((b.setWidth 32).toInt : ℤ) : ℝ) = ((b.toNat : ℕ) : ℝ) := by
  have h : b = 0#1 ∨ b = 1#1 := by
    rcases Nat.lt_or_ge b.toNat 1 with h | h
    · left; apply BitVec.eq_of_toNat_eq; simp; omega
    · right; apply BitVec.eq_of_toNat_eq; have := b.isLt; simp; omega
  rcases h with rfl | rfl <;> simp

end Cert.RowForm

end
-- ==== Proof.RefSide.lean ====
/-
  The reference, entry by entry, is the row form.

  The reference computes on the [8, 4096, 1024] arrays directly: entry (b, s, d) of its result depends on row
  (b, s) of the velocity and of the position and on the weights. Each of its intermediate arrays is read here at an
  index (b, s, ·) and identified with the matching quantity of the row form: the sixteen projections, the factor
  1 / (1 + ‖p‖), the quadratic term carried back through W, the potential, the clamp, the two gates, the factor of
  the mean square and the factor of the comparison; the last lemma multiplies them together.
-/
import proofs.«116041_j2370821948216_1_alg».proof.Proof.Gen.ReferenceIdeal.Read
import proofs.«116041_j2370821948216_1_alg».proof.Proof.RowForm

noncomputable section

namespace Cert.RefSide

open Cert.ReferenceIdeal Cert.ReferenceIdeal.Gen Cert.ReferenceIdeal.Read Idealize.ShloMosaic Idealize.ShloMosaic.ValueIdx
open Cert.RowForm

variable (x0 x1 : (⟨S8x4096x1024, .f32⟩ : BufTy).Contents (Elt Ideal))
  (x2 x3 : (⟨S1024x16, .f32⟩ : BufTy).Contents (Elt Ideal)) (x4 : (⟨S1x1024, .f32⟩ : BufTy).Contents (Elt Ideal))
  (x5 : (⟨S1024x1024, .f32⟩ : BufTy).Contents (Elt Ideal)) (x6 : (⟨S1024, .f32⟩ : BufTy).Contents (Elt Ideal))
  (x7 : (⟨S1024x1024, .f32⟩ : BufTy).Contents (Elt Ideal)) (x8 : (⟨S1024, .f32⟩ : BufTy).Contents (Elt Ideal))

/-! ### Rows and weights as plain functions -/

/-- Row (b, s) of a [8, 4096, 1024] array. -/
abbrev row (x : (⟨S8x4096x1024, .f32⟩ : BufTy).Contents (Elt Ideal)) (b : Fin 8) (s : Fin 4096) : Fin 1024 → EReal :=
  fun j => x (ix3 b s j)
/-- A [1024, 16] matrix by row and column. -/
abbrev mat16 (w : (⟨S1024x16, .f32⟩ : BufTy).Contents (Elt Ideal)) : Fin 1024 → Fin 16 → EReal := fun j k => w (ix2 j k)
/-- A [1024, 1024] matrix by row and column. -/
abbrev mat (w : (⟨S1024x1024, .f32⟩ : BufTy).Contents (Elt Ideal)) : Fin 1024 → Fin 1024 → EReal := fun d j => w (ix2 d j)
/-- The one row of a [1, 1024] matrix. -/
abbrev row1 (w : (⟨S1x1024, .f32⟩ : BufTy).Contents (Elt Ideal)) : Fin 1024 → EReal := fun j => w (ix2 (0 : Fin 1) j)
/-- A vector of 1024 entries. -/
abbrev vec (w : (⟨S1024, .f32⟩ : BufTy).Contents (Elt Ideal)) : Fin 1024 → EReal := fun d => w (ix1 d)

/-! ### The composed index maps at (b, s, ·) -/

theorem lidx0 (b : Fin 8) (s : Fin 4096) (k : Fin 16) (j : Fin 1024) : lidx_main_v0 (ix3 b s k) j = ix3 b s j :=
  funext fun a => by match a with | ⟨0, _⟩ => rfl | ⟨1, _⟩ => rfl | ⟨2, _⟩ => rfl
theorem ridx0 (b : Fin 8) (s : Fin 4096) (k : Fin 16) (j : Fin 1024) : ridx_main_v0 (ix3 b s k) j = ix2 j k :=
  funext fun a => by match a with | ⟨0, _⟩ => rfl | ⟨1, _⟩ => rfl
theorem idxc0v1 (b : Fin 8) (s : Fin 4096) (k : Fin 16) : idx_main_call0_v1 (ix2 b s) k = ix3 b s k :=
  funext fun a => by match a with | ⟨0, _⟩ => rfl | ⟨1, _⟩ => rfl | ⟨2, _⟩ => rfl
theorem idxc0v2 (b : Fin 8) (s : Fin 4096) (u : Fin 1) : idx_main_call0_v2 (ix3 b s u) = ix2 b s :=
  funext fun a => by match a with | ⟨0, _⟩ => rfl | ⟨1, _⟩ => rfl
theorem idx7 (b : Fin 8) (s : Fin 4096) (k : Fin 16) : idx_main_v7 (ix3 b s k) = ix3 b s (0 : Fin 1) :=
  funext fun a => by match a with | ⟨0, _⟩ => rfl | ⟨1, _⟩ => rfl | ⟨2, _⟩ => rfl
theorem lidx9 (b : Fin 8) (s : Fin 4096) (d : Fin 1024) (k : Fin 16) : lidx_main_v9 (ix3 b s d) k = ix3 b s k :=
  funext fun a => by match a with | ⟨0, _⟩ => rfl | ⟨1, _⟩ => rfl | ⟨2, _⟩ => rfl
theorem ridx9 (b : Fin 8) (s : Fin 4096) (d : Fin 1024) (k : Fin 16) : ridx_main_v9 (ix3 b s d) k = ix2 d k :=
  funext fun a => by match a with | ⟨0, _⟩ => rfl | ⟨1, _⟩ => rfl
theorem lidx10 (b : Fin 8) (s : Fin 4096) (j : Fin 1024) : lidx_main_v10 (ix3 b s (0 : Fin 1)) j = ix3 b s j :=
  funext fun a => by match a with | ⟨0, _⟩ => rfl | ⟨1, _⟩ => rfl | ⟨2, _⟩ => rfl
theorem ridx10 (b : Fin 8) (s : Fin 4096) (j : Fin 1024) : ridx_main_v10 (ix3 b s (0 : Fin 1)) j = ix2 (0 : Fin 1) j :=
  funext fun a => by match a with | ⟨0, _⟩ => rfl | ⟨1, _⟩ => rfl
theorem idx19 (b : Fin 8) (s : Fin 4096) (d : Fin 1024) : idx_main_v19 (ix3 b s d) = ix3 b s (0 : Fin 1) :=
  funext fun a => by match a with | ⟨0, _⟩ => rfl | ⟨1, _⟩ => rfl | ⟨2, _⟩ => rfl
theorem lidx22 (b : Fin 8) (s : Fin 4096) (d : Fin 1024) (j : Fin 1024) : lidx_main_v22 (ix3 b s d) j = ix3 b s j :=
  funext fun a => by match a with | ⟨0, _⟩ => rfl | ⟨1, _⟩ => rfl | ⟨2, _⟩ => rfl
theorem ridx22 (b : Fin 8) (s : Fin 4096) (d : Fin 1024) (j : Fin 1024) : ridx_main_v22 (ix3 b s d) j = ix2 d j :=
  funext fun a => by match a with | ⟨0, _⟩ => rfl | ⟨1, _⟩ => rfl
theorem idx2324 (b : Fin 8) (s : Fin 4096) (d : Fin 1024) : idx_main_v23 (idx_main_v24 (ix3 b s d)) = ix1 d :=
  funext fun a => by match a with | ⟨0, _⟩ => rfl
theorem lidx33 (b : Fin 8) (s : Fin 4096) (d : Fin 1024) (j : Fin 1024) : lidx_main_v33 (ix3 b s d) j = ix3 b s j :=
  funext fun a => by match a with | ⟨0, _⟩ => rfl | ⟨1, _⟩ => rfl | ⟨2, _⟩ => rfl
theorem ridx33 (b : Fin 8) (s : Fin 4096) (d : Fin 1024) (j : Fin 1024) : ridx_main_v33 (ix3 b s d) j = ix2 d j :=
  funext fun a => by match a with | ⟨0, _⟩ => rfl | ⟨1, _⟩ => rfl
theorem idx3435 (b : Fin 8) (s : Fin 4096) (d : Fin 1024) : idx_main_v34 (idx_main_v35 (ix3 b s d)) = ix1 d :=
  funext fun a => by match a with | ⟨0, _⟩ => rfl
theorem idx46 (b : Fin 8) (s : Fin 4096) (j : Fin 1024) : idx_main_v46 (ix2 b s) j = ix3 b s j :=
  funext fun a => by match a with | ⟨0, _⟩ => rfl | ⟨1, _⟩ => rfl | ⟨2, _⟩ => rfl
theorem idx47 (b : Fin 8) (s : Fin 4096) (u : Fin 1) : idx_main_v47 (ix3 b s u) = ix2 b s :=
  funext fun a => by match a with | ⟨0, _⟩ => rfl | ⟨1, _⟩ => rfl
theorem idx55 (b : Fin 8) (s : Fin 4096) (d : Fin 1024) : idx_main_v55 (ix3 b s d) = ix3 b s (0 : Fin 1) :=
  funext fun a => by match a with | ⟨0, _⟩ => rfl | ⟨1, _⟩ => rfl | ⟨2, _⟩ => rfl
theorem idx64 (b : Fin 8) (s : Fin 4096) (d : Fin 1024) : idx_main_v64 (ix3 b s d) = ix3 b s (0 : Fin 1) :=
  funext fun a => by match a with | ⟨0, _⟩ => rfl | ⟨1, _⟩ => rfl | ⟨2, _⟩ => rfl

/-! ### The quantities of the row form, one by one -/

/-- The sixteen projections of row (b, s). -/
theorem proj_at (b : Fin 8) (s : Fin 4096) (k : Fin 16) :
    val_main_v0 (F := Ideal) x0 x2 (ix3 b s k) = proj (row x0 b s) (mat16 x2) k := by
  rw [val_main_v0_apply]
  simp only [lidx0, ridx0]
  rfl

/-- The factor 1 / (1 + ‖p‖): the norm is the square root of the sum of the squares, started from the literal zero. -/
theorem scale_at (b : Fin 8) (s : Fin 4096) (u : Fin 1) :
    val_main_v5 (F := Ideal) x0 x2 (ix3 b s u) = scale (proj (row x0 b s) (mat16 x2)) := by
  rw [val_main_v5_apply, val_main_v4_apply, val_main_cst_0_apply, val_main_v3_apply, val_main_v2_apply, val_main_cst_apply,
    val_main_v1_apply, val_main_call0_v2_apply, idxc0v2, val_main_call0_v1_apply, val_main_call0_cst_apply]
  simp only [val_main_call0_v0_apply, idxc0v1, proj_at, Ideal.hostDivf_def, Ideal.addf_def, Ideal.mulf_def,
    Ideal.hostUnary_sqrt_def, Ideal.ofBits_def]
  rfl

/-- The damped squares carried back through W. -/
theorem quad_at (b : Fin 8) (s : Fin 4096) (d : Fin 1024) :
    val_main_v9 (F := Ideal) x0 x2 x3 (ix3 b s d) = quad (proj (row x0 b s) (mat16 x2)) (mat16 x3) d := by
  rw [val_main_v9_apply]
  simp only [lidx9, ridx9, val_main_v8_apply, val_main_v6_apply, val_main_v7_apply, idx7, scale_at, proj_at, Ideal.mulf_def]
  rfl

/-- The potential of row (b, s): the logistic function, as a quotient, of the row's product with Vw. -/
theorem potential_at (b : Fin 8) (s : Fin 4096) :
    val_main_v16 (F := Ideal) x1 x4 (ix3 b s (0 : Fin 1)) = potential (row x1 b s) (row1 x4) := by
  rw [val_main_v16_apply, val_main_v15_apply, val_main_cst_2_apply, val_main_v14_apply, val_main_v13_apply, val_main_cst_1_apply,
    val_main_v12_apply, val_main_v11_apply, val_main_v10_apply]
  simp only [lidx10, ridx10, Ideal.hostDivf_def, Ideal.addf_def, Ideal.hostUnary_exp_def, Ideal.hostNegf_def, Ideal.negf_def,
    Ideal.ofBits_def]
  rfl

/-- The quadratic term times one plus the potential, clamped to [-5, 5]. -/
theorem clip_at (b : Fin 8) (s : Fin 4096) (d : Fin 1024) :
    val_main_v21 (F := Ideal) x0 x1 x2 x3 x4 (ix3 b s d)
      = clip5 (quad (proj (row x0 b s) (mat16 x2)) (mat16 x3) d * (c1 + potential (row x1 b s) (row1 x4))) := by
  rw [val_main_v21_apply, val_main_call1_v4_apply, val_main_call1_v3_apply, val_main_cst_5_apply, val_main_call1_v2_apply,
    val_main_call1_v1_apply, val_main_call1_v0_apply, val_main_cst_4_apply, val_main_v20_apply, val_main_v19_apply, idx19,
    val_main_v18_apply, val_main_v17_apply, val_main_cst_3_apply, quad_at, potential_at]
  simp only [Ideal.minimumf_def, Ideal.maximumf_def, Ideal.mulf_def, Ideal.addf_def, Ideal.ofBits_def]
  rfl

/-- The gate of the first weight pair. -/
theorem gate_at (b : Fin 8) (s : Fin 4096) (d : Fin 1024) :
    val_main_v31 (F := Ideal) x1 x5 x6 (ix3 b s d) = gate (row x1 b s) (mat x5) (vec x6) d := by
  rw [val_main_v31_apply, val_main_v30_apply, val_main_cst_7_apply, val_main_v29_apply, val_main_v28_apply, val_main_cst_6_apply,
    val_main_v27_apply, val_main_v26_apply, val_main_v25_apply, val_main_v24_apply, val_main_v23_apply, idx2324, val_main_v22_apply]
  simp only [lidx22, ridx22, Ideal.hostDivf_def, Ideal.addf_def, Ideal.hostUnary_exp_def, Ideal.hostNegf_def, Ideal.negf_def,
    Ideal.ofBits_def]
  rfl

/-- The gate of the second weight pair. -/
theorem gate2_at (b : Fin 8) (s : Fin 4096) (d : Fin 1024) :
    val_main_v42 (F := Ideal) x1 x7 x8 (ix3 b s d) = gate (row x1 b s) (mat x7) (vec x8) d := by
  rw [val_main_v42_apply, val_main_v41_apply, val_main_cst_9_apply, val_main_v40_apply, val_main_v39_apply, val_main_cst_8_apply,
    val_main_v38_apply, val_main_v37_apply, val_main_v36_apply, val_main_v35_apply, val_main_v34_apply, idx3435, val_main_v33_apply]
  simp only [lidx33, ridx33, Ideal.hostDivf_def, Ideal.addf_def, Ideal.hostUnary_exp_def, Ideal.hostNegf_def, Ideal.negf_def,
    Ideal.ofBits_def]
  rfl

/-- One plus half the hyperbolic tangent of the row's mean square. -/
theorem plastic_at (b : Fin 8) (s : Fin 4096) :
    val_main_v54 (F := Ideal) x0 (ix3 b s (0 : Fin 1)) = plastic (row x0 b s) := by
  rw [val_main_v54_apply, val_main_v53_apply, val_main_cst_13_apply, val_main_v52_apply, val_main_v51_apply, val_main_cst_12_apply,
    val_main_v50_apply, val_main_v49_apply, val_main_v48_apply, val_main_cst_11_apply, val_main_v47_apply, idx47,
    val_main_v46_apply, val_main_cst_10_apply]
  simp only [val_main_v45_apply, idx46, Ideal.hostDivf_def, Ideal.addf_def, Ideal.mulf_def, Ideal.hostUnary_tanh_def,
    Ideal.ofBits_def]
  rfl

/-- One plus nine times the bit of "the potential exceeds 0.8". -/
theorem boost_at (b : Fin 8) (s : Fin 4096) :
    val_main_v63 (F := Ideal) x1 x4 (ix3 b s (0 : Fin 1)) = boost (potential (row x1 b s) (row1 x4)) := by
  rw [val_main_v63_apply, val_main_v62_apply, val_main_cst_16_apply, val_main_v61_apply, val_main_v60_apply, val_main_cst_15_apply,
    val_main_v59_apply, val_main_v58_apply, val_main_v57_apply, val_main_cst_14_apply, potential_at]
  simp only [Ideal.addf_def, Ideal.mulf_def, Ideal.ofBits_def]
  rfl

/-- Entry (b, s, d) of the reference's result is the row form of row (b, s) at column d. -/
theorem out_at (b : Fin 8) (s : Fin 4096) (d : Fin 1024) :
    val_main_v65 (F := Ideal) x0 x1 x2 x3 x4 x5 x6 x7 x8 (ix3 b s d)
      = rowOut (row x0 b s) (row x1 b s) (mat16 x2) (mat16 x3) (row1 x4) (mat x5) (vec x6) (mat x7) (vec x8) d := by
  rw [val_main_v65_apply, val_main_v64_apply, idx64, boost_at, val_main_v56_apply, val_main_v55_apply, idx55, plastic_at,
    val_main_v44_apply, val_main_v32_apply, clip_at, gate_at, val_main_v43_apply, gate2_at]
  simp only [Ideal.mulf_def, Ideal.addf_def]
  rfl

/-- The reference's result IS the whole-array row form of its arguments. -/
theorem whole_eq : val_main_v65 (F := Ideal) x0 x1 x2 x3 x4 x5 x6 x7 x8 = whole x0 x1 x2 x3 x4 x5 x6 x7 x8 := by
  funext i
  obtain ⟨b, s, d, rfl⟩ : ∃ (b : Fin 8) (s : Fin 4096) (d : Fin 1024), i = ix3 b s d := ⟨i 0, i 1, i 2, eq_ix3 i⟩
  rw [out_at]
  rfl

end Cert.RefSide

end
-- ==== Proof.KernelHost.lean ====
/-
  The arrays the region stages, read at an index as the arguments they were made from.

  Before the region the two big arguments are flattened from [8, 4096, 1024] to [32768, 1024]: row b·4096 + s of
  the flat array is row (b, s) of the argument. The weights are transposed, so that entry (k, d) of the staged
  matrix is entry (d, k) of the argument, and the two bias vectors become one-row matrices. The changes of float
  format in between are the identity at the ideal reading.
-/
import proofs.«116041_j2370821948216_1_alg».proof.Proof.Gen.KernelIdeal.Frame
import Idealize.ShloMosaic.Lib.ValueIdx
import Idealize.ShloMosaic.Lib.Pipeline.Value
import Idealize.ShloMosaic.Lib.StableHlo.Run

noncomputable section

namespace Cert.KernelSide

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-! ### The arguments, and the staged arrays, as functions of a literal index type -/

abbrev arg0 (c : Dev nD) : S8x4096x1024.Idx → EReal := m ((c : Thread nD τ).loc main_arg0)
abbrev arg1 (c : Dev nD) : S8x4096x1024.Idx → EReal := m ((c : Thread nD τ).loc main_arg1)
abbrev arg2 (c : Dev nD) : S1024x16.Idx → EReal := m ((c : Thread nD τ).loc main_arg2)
abbrev arg3 (c : Dev nD) : S1024x16.Idx → EReal := m ((c : Thread nD τ).loc main_arg3)
abbrev arg4 (c : Dev nD) : S1x1024.Idx → EReal := m ((c : Thread nD τ).loc main_arg4)
abbrev arg5 (c : Dev nD) : S1024x1024.Idx → EReal := m ((c : Thread nD τ).loc main_arg5)
abbrev arg6 (c : Dev nD) : S1024.Idx → EReal := m ((c : Thread nD τ).loc main_arg6)
abbrev arg7 (c : Dev nD) : S1024x1024.Idx → EReal := m ((c : Thread nD τ).loc main_arg7)
abbrev arg8 (c : Dev nD) : S1024.Idx → EReal := m ((c : Thread nD τ).loc main_arg8)

/-- The flattened velocity. -/
abbrev a0 (c : Dev nD) : S32768x1024.Idx → EReal := V m c main_v0
/-- The flattened position. -/
abbrev a1 (c : Dev nD) : S32768x1024.Idx → EReal := V m c main_v1
/-- U. -/
abbrev a2 (c : Dev nD) : S1024x16.Idx → EReal := V m c main_v2
/-- W transposed. -/
abbrev a3 (c : Dev nD) : S16x1024.Idx → EReal := V m c main_v4
/-- Vw transposed. -/
abbrev a4 (c : Dev nD) : S1024x1.Idx → EReal := V m c main_v6
/-- The first gate's weights transposed. -/
abbrev a5 (c : Dev nD) : S1024x1024.Idx → EReal := V m c main_v8
/-- The first gate's bias as a row. -/
abbrev a6 (c : Dev nD) : S1x1024.Idx → EReal := V m c main_v11
/-- The second gate's weights transposed. -/
abbrev a7 (c : Dev nD) : S1024x1024.Idx → EReal := V m c main_v10
/-- The second gate's bias as a row. -/
abbrev a8 (c : Dev nD) : S1x1024.Idx → EReal := V m c main_v12

/-! ### Each staged array as the operations' term -/

theorem a0_eq (c : Dev nD) : a0 m c = shapeCast S32768x1024 (arg0 m c) shapeCasts_S8x4096x1024_S32768x1024 := by
  show StableHlo.after hostOps0 (fun b => m (c, b)) (Proc.devRef .tc main_v0) = _
  after_results
  rfl
theorem a1_eq (c : Dev nD) : a1 m c = shapeCast S32768x1024 (arg1 m c) shapeCasts_S8x4096x1024_S32768x1024 := by
  show StableHlo.after hostOps0 (fun b => m (c, b)) (Proc.devRef .tc main_v1) = _
  after_results
  rfl
theorem a2_eq (c : Dev nD) : a2 m c = arg2 m c := by
  show StableHlo.after hostOps0 (fun b => m (c, b)) (Proc.devRef .tc main_v2) = _
  after_results
  rfl
theorem a3_eq (c : Dev nD) : a3 m c = transpose S16x1024 [1, 0] (arg3 m c) transposes_S1024x16_S16x1024_1_0 := by
  show StableHlo.after hostOps0 (fun b => m (c, b)) (Proc.devRef .tc main_v4) = _
  after_results
  rfl
theorem a4_eq (c : Dev nD) : a4 m c = transpose S1024x1 [1, 0] (arg4 m c) transposes_S1x1024_S1024x1_1_0 := by
  show StableHlo.after hostOps0 (fun b => m (c, b)) (Proc.devRef .tc main_v6) = _
  after_results
  rfl
theorem a5_eq (c : Dev nD) : a5 m c = transpose S1024x1024 [1, 0] (arg5 m c) transposes_S1024x1024_S1024x1024_1_0 := by
  show StableHlo.after hostOps0 (fun b => m (c, b)) (Proc.devRef .tc main_v8) = _
  after_results
  rfl
theorem a6_eq (c : Dev nD) : a6 m c = shapeCast S1x1024 (arg6 m c) shapeCasts_S1024_S1x1024 := by
  show StableHlo.after hostOps0 (fun b => m (c, b)) (Proc.devRef .tc main_v11) = _
  after_results
  rfl
theorem a7_eq (c : Dev nD) : a7 m c = transpose S1024x1024 [1, 0] (arg7 m c) transposes_S1024x1024_S1024x1024_1_0 := by
  show StableHlo.after hostOps0 (fun b => m (c, b)) (Proc.devRef .tc main_v10) = _
  after_results
  rfl
theorem a8_eq (c : Dev nD) : a8 m c = shapeCast S1x1024 (arg8 m c) shapeCasts_S1024_S1x1024 := by
  show StableHlo.after hostOps0 (fun b => m (c, b)) (Proc.devRef .tc main_v12) = _
  after_results
  rfl

/-! ### … and at an index -/

/-- Row b·4096 + s of the flattened velocity is row (b, s) of the argument. -/
theorem a0_at (c : Dev nD) (b : Fin 8) (s : Fin 4096) (j : Fin 1024) :
    a0 m c (ix2 (⟨b.val * 4096 + s.val, by omega⟩ : Fin 32768) j) = arg0 m c (ix3 b s j) := by
  rw [a0_eq]
  exact shapeCast_apply _ _ _ _ (by rw [Shape.rowMajor_val_three, Shape.rowMajor_val_two]; rfl)
/-- Row b·4096 + s of the flattened position is row (b, s) of the argument. -/
theorem a1_at (c : Dev nD) (b : Fin 8) (s : Fin 4096) (j : Fin 1024) :
    a1 m c (ix2 (⟨b.val * 4096 + s.val, by omega⟩ : Fin 32768) j) = arg1 m c (ix3 b s j) := by
  rw [a1_eq]
  exact shapeCast_apply _ _ _ _ (by rw [Shape.rowMajor_val_three, Shape.rowMajor_val_two]; rfl)
theorem a2_at (c : Dev nD) (j : Fin 1024) (k : Fin 16) : a2 m c (ix2 j k) = arg2 m c (ix2 j k) := by
  rw [a2_eq]
/-- Entry (k, d) of W transposed is entry (d, k) of W. -/
theorem a3_at (c : Dev nD) (k : Fin 16) (d : Fin 1024) : a3 m c (ix2 k d) = arg3 m c (ix2 d k) := by
  rw [a3_eq]
  exact transpose_apply _ _ _ _ _ (fun b => by match b with | ⟨0, _⟩ => rfl | ⟨1, _⟩ => rfl)
theorem a4_at (c : Dev nD) (j : Fin 1024) : a4 m c (ix2 j (0 : Fin 1)) = arg4 m c (ix2 (0 : Fin 1) j) := by
  rw [a4_eq]
  exact transpose_apply _ _ _ _ _ (fun b => by match b with | ⟨0, _⟩ => rfl | ⟨1, _⟩ => rfl)
theorem a5_at (c : Dev nD) (j d : Fin 1024) : a5 m c (ix2 j d) = arg5 m c (ix2 d j) := by
  rw [a5_eq]
  exact transpose_apply _ _ _ _ _ (fun b => by match b with | ⟨0, _⟩ => rfl | ⟨1, _⟩ => rfl)
theorem a6_at (c : Dev nD) (d : Fin 1024) : a6 m c (ix2 (0 : Fin 1) d) = arg6 m c (ix1 d) := by
  rw [a6_eq]
  exact shapeCast_apply _ _ _ _ (by rw [Shape.rowMajor_val_one, Shape.rowMajor_val_two]; show d.val = 0 * 1024 + d.val; omega)
theorem a7_at (c : Dev nD) (j d : Fin 1024) : a7 m c (ix2 j d) = arg7 m c (ix2 d j) := by
  rw [a7_eq]
  exact transpose_apply _ _ _ _ _ (fun b => by match b with | ⟨0, _⟩ => rfl | ⟨1, _⟩ => rfl)
theorem a8_at (c : Dev nD) (d : Fin 1024) : a8 m c (ix2 (0 : Fin 1) d) = arg8 m c (ix1 d) := by
  rw [a8_eq]
  exact shapeCast_apply _ _ _ _ (by rw [Shape.rowMajor_val_one, Shape.rowMajor_val_two]; show d.val = 0 * 1024 + d.val; omega)

end Cert.KernelSide

end
-- ==== Proof.LibColumn.lean ====
/-
  Column forms of two layout operations, read at an index (general in the sizes).

  A vector of `a` entries cast to an `[a, 1]` column and back, and a column broadcast along a new minor
  axis of extent `b`: what a sum with its reduced axis kept, or a per-row value spread over the lanes,
  prints. Each reads the operand at the row's index.
-/
import Idealize.ShloMosaic.Lib.Pipeline.Value
import Idealize.ShloMosaic.Lib.ValueIdx

namespace Idealize.ShloMosaic.ValueLayout

open Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(i, l)`, the operand at `(i, 0)`, for `1 < a`. -/
theorem broadcastTo_a1_ab_apply {a b : ℕ} (ha : a ≠ 1) (v : (⟨2, ![a, 1]⟩ : Shape).Idx → α)
    (h : (⟨2, ![a, 1]⟩ : Shape).Broadcasts ⟨2, ![a, b]⟩) (i : Fin a) (l : Fin b) :
    broadcastTo ⟨2, ![a, b]⟩ v h (ix2 i l) = v (ix2 i (0 : Fin 1)) :=
  broadcastTo_apply v h _ _ (fun d => by
    match d with
    | ⟨0, _⟩ => show i.val = if a = 1 then 0 else i.val; rw [if_neg ha]
    | ⟨1, _⟩ => show (0 : ℕ) = if (1 : ℕ) = 1 then 0 else l.val; rw [if_pos rfl])

end Idealize.ShloMosaic.ValueLayout
-- ==== Proof.KernelPay.lean ====
import proofs.«116041_j2370821948216_1_alg».proof.Proof.Gen.KernelIdeal.Frame
import proofs.«116041_j2370821948216_1_alg».proof.Proof.RowForm
import proofs.«116041_j2370821948216_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section
namespace Cert.KernelSide
open Cert.KernelIdeal Cert.KernelIdeal.Gen Idealize.ShloMosaic Idealize.ShloMosaic.ValueIdx Cert.RowForm
open scoped BigOperators

/-! ### A plain matrix product `[a, n] × [n, b]` into the zero block, read at an index -/

section PlainProduct
variable {a n b : ℕ} (D : DotDims (⟨2, ![a, n]⟩ : Shape) ⟨2, ![n, b]⟩ ⟨2, ![a, b]⟩)

/-- The dimension numbers of a plain product: the left operand's axis 1 contracted with the right operand's axis 0, no
    batch axis. -/
structure IsPlain : Prop where
  lc : D.lhsContracting = [1]
  rc : D.rhsContracting = [0]
  ln : D.lhsNonContracting = [0]
  rn : D.rhsNonContracting = [1]
  lb : D.lhsBatch = []
  rb : D.rhsBatch = []

variable {D}

theorem IsPlain.rank_contr (h : IsPlain D) : D.contr.rank = 1 := by
  rw [D.rank_contr, h.lc]; rfl

theorem IsPlain.size_contr (h : IsPlain D) : D.contr.size ⟨0, by rw [h.rank_contr]; exact Nat.one_pos⟩ = n := by
  obtain ⟨lc, rc, ln, rn, lb, rb, wf⟩ := D
  obtain ⟨h1, h2, h3, h4, h5, h6⟩ := h
  dsimp only at h1 h2 h3 h4 h5 h6
  subst h1 h2 h3 h4 h5 h6
  rfl

/-- The left operand's row is the output's row. -/
theorem IsPlain.lhs_0 (h : IsPlain D) (i : (⟨2, ![a, b]⟩ : Shape).Idx) (c : D.contr.Idx) : (D.lhsIdx i c 0).val = (i 0).val := by
  obtain ⟨lc, rc, ln, rn, lb, rb, wf⟩ := D
  obtain ⟨h1, h2, h3, h4, h5, h6⟩ := h
  dsimp only at h1 h2 h3 h4 h5 h6
  subst h1 h2 h3 h4 h5 h6
  unfold DotDims.lhsIdx
  rw [dif_neg (by exact List.not_mem_nil), dif_pos (by exact List.mem_cons_self)]
  rfl
/-- The left operand's column is the contraction coordinate. -/
theorem IsPlain.lhs_1 (h : IsPlain D) (i : (⟨2, ![a, b]⟩ : Shape).Idx) (c : D.contr.Idx) :
    (D.lhsIdx i c 1).val = (c ⟨0, by rw [h.rank_contr]; exact Nat.one_pos⟩).val :=
  D.lhsIdx_val_of_single h.lc i c
/-- The right operand's row is the contraction coordinate. -/
theorem IsPlain.rhs_0 (h : IsPlain D) (i : (⟨2, ![a, b]⟩ : Shape).Idx) (c : D.contr.Idx) :
    (D.rhsIdx i c 0).val = (c ⟨0, by rw [h.rank_contr]; exact Nat.one_pos⟩).val :=
  D.rhsIdx_val_of_single h.rc i c
/-- The right operand's column is the output's column. -/
theorem IsPlain.rhs_1 (h : IsPlain D) (i : (⟨2, ![a, b]⟩ : Shape).Idx) (c : D.contr.Idx) : (D.rhsIdx i c 1).val = (i 1).val := by
  obtain ⟨lc, rc, ln, rn, lb, rb, wf⟩ := D
  obtain ⟨h1, h2, h3, h4, h5, h6⟩ := h
  dsimp only at h1 h2 h3 h4 h5 h6
  subst h1 h2 h3 h4 h5 h6
  unfold DotDims.rhsIdx
  rw [dif_neg (by exact List.not_mem_nil), dif_pos (by exact List.mem_cons_self)]
  rfl

/-- A plain product into the zero block, at `(p, q)`: the sum over the contracted axis of the left operand's row `p` times
    the right operand's column `q`. -/
theorem IsPlain.matmul_apply (h : IsPlain D) {φ₁ φ₂ : FTy} (l : FVec Ideal (⟨2, ![a, n]⟩ : Shape) φ₁) (r : FVec Ideal (⟨2, ![n, b]⟩ : Shape) φ₂)
    (p : Fin a) (q : Fin b) :
    matmul D none l r (constant (F := Ideal) (⟨2, ![a, b]⟩ : Shape) .f32 0x00000000#32) (ix2 p q)
      = ∑ j : Fin n, l (ix2 p j) * r (ix2 j q) := by
  show FloatOps.matmul D none l r (constant (F := Ideal) (⟨2, ![a, b]⟩ : Shape) .f32 0x00000000#32) (ix2 p q) = _
  rw [Ideal.matmul_constant_zero_apply, ← Equiv.sum_comp (contrEquiv1 D n h.rank_contr h.size_contr).symm]
  refine Finset.sum_congr rfl fun j _ => ?_
  have hj := contrEquiv1_symm_val D n h.rank_contr h.size_contr j
  have el : D.lhsIdx (ix2 p q) ((contrEquiv1 D n h.rank_contr h.size_contr).symm j) = ix2 p j := funext fun x => Fin.ext (by
    match x with
    | ⟨0, _⟩ => exact h.lhs_0 _ _
    | ⟨1, _⟩ => exact (h.lhs_1 _ _).trans hj)
  have er : D.rhsIdx (ix2 p q) ((contrEquiv1 D n h.rank_contr h.size_contr).symm j) = ix2 j q := funext fun x => Fin.ext (by
    match x with
    | ⟨0, _⟩ => exact (h.rhs_0 _ _).trans hj
    | ⟨1, _⟩ => exact h.rhs_1 _ _)
  rw [el, er]

end PlainProduct

/-- The four products of the body are plain. -/
theorem plain_U : IsPlain dot_S256x1024_S1024x16_S256x16_1_0_0_1_n_n := ⟨rfl, rfl, rfl, rfl, rfl, rfl⟩
theorem plain_W : IsPlain dot_S256x16_S16x1024_S256x1024_1_0_0_1_n_n := ⟨rfl, rfl, rfl, rfl, rfl, rfl⟩
theorem plain_V : IsPlain dot_S256x1024_S1024x1_S256x1_1_0_0_1_n_n := ⟨rfl, rfl, rfl, rfl, rfl, rfl⟩
theorem plain_G : IsPlain dot_S256x1024_S1024x1024_S256x1024_1_0_0_1_n_n := ⟨rfl, rfl, rfl, rfl, rfl, rfl⟩

/-! ### A lane sum read at a row -/

/-- The sum over the minor axis of an `[a, b]` block, taken with no initial value, at row `p`. -/
theorem laneSum_apply {a b : ℕ} (v : FVec Ideal (⟨2, ![a, b]⟩ : Shape) .f32)
    (h : Shape.Reduces (⟨2, ![a, b]⟩ : Shape) [1] ⟨1, ![a]⟩) (hφ : FKind.Formats .f32)
    (hacc : (0x00000000#32 : BitVec 32) = 0x00000000#32) (p : Fin a) :
    multiReduction (F := Ideal) .add [1] ⟨1, ![a]⟩ v 0x00000000#32 h hφ hacc (ix1 p) = ∑ k : Fin b, v (ix2 p k) := by
  refine (Ideal.multiReduction_add_single v 0x00000000#32 h hφ hacc (ix1 p)).trans ?_
  refine Finset.sum_congr rfl fun k _ => congrArg v ?_
  funext x; match x with | ⟨0, _⟩ => rfl | ⟨1, _⟩ => rfl

/-- The same sum kept as a column `[a, 1]`. -/
theorem laneSumCol_apply {a b : ℕ} (v : FVec Ideal (⟨2, ![a, b]⟩ : Shape) .f32)
    (h : Shape.Reduces (⟨2, ![a, b]⟩ : Shape) [1] ⟨1, ![a]⟩) (hφ : FKind.Formats .f32)
    (hacc : (0x00000000#32 : BitVec 32) = 0x00000000#32) (hc : (⟨1, ![a]⟩ : Shape).ShapeCasts ⟨2, ![a, 1]⟩) (p : Fin a) (u : Fin 1) :
    shapeCast ⟨2, ![a, 1]⟩ (multiReduction (F := Ideal) .add [1] ⟨1, ![a]⟩ v 0x00000000#32 h hφ hacc) hc (ix2 p u)
      = ∑ k : Fin b, v (ix2 p k) :=
  (ValueLayout.shapeCast_a_a1_apply _ hc p u).trans (laneSum_apply v h hφ hacc p)

/-! ### The loaded blocks as the body first re-lays them: every cast is to the same shape, every format change exact -/

theorem pay2_eq (x0 : Vec Ideal S256x1024 .f32) : k0_pay2 (F := Ideal) x0 = x0 :=
  shapeCast_self x0 _
theorem pay3_apply (x1 : Vec Ideal S256x1024 .f32) (i : S256x1024.Idx) : k0_pay3 (F := Ideal) x1 i = x1 i :=
  congrFun (shapeCast_self x1 _) i
theorem pay6_eq (x5 : Vec Ideal S1024x1024 .bf16) : k0_pay6 (F := Ideal) x5 = x5 :=
  shapeCast_self x5 _

/-- The potential column: at row `p` the logistic function of the row's product with the one weight column. -/
theorem pay4_apply (x1 : Vec Ideal S256x1024 .f32) (x4 : Vec Ideal S1024x1 .bf16) (p : Fin 256) :
    k0_pay4 (F := Ideal) x1 x4 (ix2 p (0 : Fin 1)) = potential (fun j => x1 (ix2 p j)) (fun j => x4 (ix2 j (0 : Fin 1))) := by
  unfold k0_pay4
  show Ideal.logistic (matmul dot_S256x1024_S1024x1_S256x1_1_0_0_1_n_n none (k0_pay3 (F := Ideal) x1)
    (shapeCast S1024x1 x4 shapeCasts_S1024x1_S1024x1) (constant (F := Ideal) S256x1 .f32 0x00000000#32) (ix2 p (0 : Fin 1))) = _
  rw [plain_V.matmul_apply, shapeCast_self, logistic_eq_sigm]
  simp only [pay3_apply]
  rfl

/-! ### Three more pointwise operations at an index -/

theorem sqrt_at {s : Shape} {φ : FTy} (a : FVec Ideal s φ) (i : s.Idx) : sqrt a i = Ideal.sqrt (a i) := rfl
theorem tanh_at {s : Shape} {φ : FTy} (a : FVec Ideal s φ) (i : s.Idx) : tanh a i = Ideal.tanh (a i) := rfl
theorem logistic_at {s : Shape} {φ : FTy} (a : FVec Ideal s φ) (i : s.Idx) : logistic a i = Ideal.logistic (a i) := rfl

/-- The clamped quadratic term: at `(p, q)` the damped squares of row `p`'s sixteen projections carried back through `W`,
    times one plus the row's potential, clamped to `[-5, 5]`. -/
theorem pay5_at (x0 x1 : Vec Ideal S256x1024 .f32) (x2 : Vec Ideal S1024x16 .bf16) (x3 : Vec Ideal S16x1024 .bf16)
    (x4 : Vec Ideal S1024x1 .bf16) (p : Fin 256) (q : Fin 1024) :
    k0_pay5 (F := Ideal) x0 x1 x2 x3 x4 (ix2 p q)
      = clip5 (quad (proj (fun j => x0 (ix2 p j)) (fun j k => x2 (ix2 j k))) (fun d k => x3 (ix2 k d)) q
          * (c1 + potential (fun j => x1 (ix2 p j)) (fun j => x4 (ix2 j (0 : Fin 1))))) := by
  unfold k0_pay5
  simp only [minimumf_apply, maximumf_apply, broadcast_apply, mulf_apply]
  rw [plain_W.matmul_apply, ValueLayout.broadcastTo_a1_ab_apply (by decide)]
  simp only [truncf_apply, mulf_apply, addf_apply, divf_apply, sqrt_at, broadcast_apply, shapeCast_self, pay4_apply, pay2_eq,
    ValueLayout.broadcastTo_a1_ab_apply (show (256 : ℕ) ≠ 1 by decide), plain_U.matmul_apply]
  rw [laneSumCol_apply]
  simp only [truncf_apply, mulf_apply, plain_U.matmul_apply]
  unfold clip5 quad scale proj
  rw [c0_add]
  rfl

/-- A comparison's bit widened to 32 bits and converted as a signed integer is the bit read as a natural number. -/
theorem sitofp_bit (b : BitVec 1) : FloatOps.sitofp (F := Ideal) .f32 (b.setWidth 32) = (((b.toNat : ℕ) : ℝ) : EReal) := by
  show ((((b.setWidth 32).toInt : ℤ) : ℝ) : EReal) = _
  rw [bit_toInt_eq_toNat]

/-- What the body stores at row `p`, column `q` of its output block is the row form of row `p` of the two big input
    blocks and of the weight blocks (the second factor of each matrix product read column-wise). -/
theorem pay_at (x0 x1 : Vec Ideal S256x1024 .f32) (x2 : Vec Ideal S1024x16 .bf16) (x3 : Vec Ideal S16x1024 .bf16)
    (x4 : Vec Ideal S1024x1 .bf16) (x5 : Vec Ideal S1024x1024 .bf16) (x6 : Vec Ideal S1x1024 .f32)
    (x7 : Vec Ideal S1024x1024 .bf16) (x8 : Vec Ideal S1x1024 .f32) (p : Fin 256) (q : Fin 1024) :
    out0_9 (F := Ideal) x0 x1 x2 x3 x4 x5 x6 x7 x8 (ix2 p q)
      = rowOut (fun j => x0 (ix2 p j)) (fun j => x1 (ix2 p j)) (fun j k => x2 (ix2 j k)) (fun d k => x3 (ix2 k d))
          (fun j => x4 (ix2 j (0 : Fin 1))) (fun d j => x5 (ix2 j d)) (fun d => x6 (ix2 (0 : Fin 1) d))
          (fun d j => x7 (ix2 j d)) (fun d => x8 (ix2 (0 : Fin 1) d)) q := by
  have hz : (![0, 0] : Fin 2 → ℕ) = fun _ => 0 := funext fun a => by fin_cases a <;> rfl
  unfold out0_9
  rw [View.canon_unit_zero hz]
  simp only [View.ld_unit_zero (S := S256x1024) hz, View.ld_unit_zero (S := S1024x16) hz, View.ld_unit_zero (S := S16x1024) hz,
    View.ld_unit_zero (S := S1024x1) hz, View.ld_unit_zero (S := S1024x1024) hz, View.ld_unit_zero (S := S1x1024) hz]
  unfold k0_pay1
  simp only [mulf_apply, addf_apply, divf_apply, tanh_at, logistic_at, broadcast_apply, cmpf_apply, extui_apply, sitofp_apply,
    shapeCast_self, ValueLayout.broadcastTo_a1_ab_apply (show (256 : ℕ) ≠ 1 by decide), broadcastTo_1b_ab_apply,
    plain_G.matmul_apply, pay2_eq, pay3_apply, pay4_apply, pay5_at, pay6_eq, sitofp_bit]
  rw [laneSumCol_apply]
  simp only [mulf_apply, logistic_eq_sigm]
  unfold rowOut gate plastic boost
  rw [c0_add]
  rfl

end Cert.KernelSide
end
-- ==== Proof.KernelBlocks.lean ====
/-
  From the body's blocks to the whole result.

  The grid has 128 points; point t stages rows 256·t … 256·t + 255 of the flattened velocity and position and the
  whole of every weight array, and writes back rows 256·t … 256·t + 255 of the flat result. So what point t writes
  is block t of ONE function of the staged arrays: the row form of row r of the two flat arrays, for every row r.
  The 128 blocks tile the flat result, which therefore ends holding that function; the reshape after the region
  reads row b·4096 + s of it as row (b, s) of the result, and the flattening before the region read row (b, s) of
  each argument as that same flat row.
-/
import proofs.«116041_j2370821948216_1_alg».proof.Proof.KernelHost
import proofs.«116041_j2370821948216_1_alg».proof.Proof.KernelPay
import proofs.«116041_j2370821948216_1_alg».proof.Proof.RowForm

noncomputable section

namespace Cert.KernelSide

open Cert.KernelIdeal Cert.KernelIdeal.Gen Idealize.ShloMosaic Idealize.ShloMosaic.TcCoe Idealize.SL.Sem Idealize.ShloMosaic.ValueIdx
open Idealize.ShloMosaic.Pipeline (Dat)
open Cert.RowForm

variable (m : (ℓ : Loc nD τ sig) → Buf (Elt Ideal) ℓ) (ρ : Dev nD → PrngReg)

/-! ### The flat result as one function of the staged arrays -/

/-- The row form of row `r` of the two flat arrays at column `q`, the weights read as the body's matrix products read
    them (the staged matrices are the transposes). -/
def flatAt (A0 A1 : S32768x1024.Idx → EReal) (A2 : S1024x16.Idx → EReal) (A3 : S16x1024.Idx → EReal) (A4 : S1024x1.Idx → EReal)
    (A5 : S1024x1024.Idx → EReal) (A6 : S1x1024.Idx → EReal) (A7 : S1024x1024.Idx → EReal) (A8 : S1x1024.Idx → EReal)
    (r : Fin 32768) (q : Fin 1024) : EReal :=
  rowOut (fun j => A0 (ix2 r j)) (fun j => A1 (ix2 r j)) (fun j k => A2 (ix2 j k)) (fun d k => A3 (ix2 k d))
    (fun j => A4 (ix2 j (0 : Fin 1))) (fun d j => A5 (ix2 j d)) (fun d => A6 (ix2 (0 : Fin 1) d))
    (fun d j => A7 (ix2 j d)) (fun d => A8 (ix2 (0 : Fin 1) d)) q

/-- The flat result on core `c`. -/
def flat (c : Dev nD) : S32768x1024.Idx → EReal := fun i =>
  flatAt (a0 m c) (a1 m c) (a2 m c) (a3 m c) (a4 m c) (a5 m c) (a6 m c) (a7 m c) (a8 m c)
    ⟨(i 0).val, (i 0).isLt⟩ ⟨(i 1).val, (i 1).isLt⟩

/-! ### The windows' blocks -/

/-- Where each window's block sits at point `t`: the two big inputs and the output move with `t` along the rows, every
    weight window stays at block (0, 0). Decided over the 128 points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

theorem rows_lt (t : Fin cfg0.N) (p : Fin 256) : t.val * 256 + p.val < 32768 := by
  have := t.isLt; have hN : cfg0.N = 128 := N_0; have := p.isLt; omega

/-- Row `p` of the velocity's block at point `t` is row 256·t + p of the flat velocity. -/
theorem blk0_at (c : Dev nD) (t : Fin cfg0.N) (p : Fin 256) (j : Fin 1024) :
    (iblk m c 0 t : Vec Ideal S256x1024 .f32) (ix2 p j) = a0 m c (ix2 (⟨t.val * 256 + p.val, rows_lt t p⟩ : Fin 32768) j) := by
  have hi := idx_facts t
  unfold iblk
  rw [View.read_apply]
  show V m c main_v0 _ = V m c main_v0 _
  congr 1
  funext a
  apply Fin.ext
  match a with
  | ⟨0, _⟩ => show win0_0.index t 0 * 256 + 1 * p.val = t.val * 256 + p.val; rw [hi.1]; omega
  | ⟨1, _⟩ => show win0_0.index t 1 * 1024 + 1 * j.val = j.val; rw [hi.2.1]; omega

/-- Row `p` of the position's block at point `t` is row 256·t + p of the flat position. -/
theorem blk1_at (c : Dev nD) (t : Fin cfg0.N) (p : Fin 256) (j : Fin 1024) :
    (iblk m c 1 t : Vec Ideal S256x1024 .f32) (ix2 p j) = a1 m c (ix2 (⟨t.val * 256 + p.val, rows_lt t p⟩ : Fin 32768) j) := by
  have hi := idx_facts t
  unfold iblk
  rw [View.read_apply]
  show V m c main_v1 _ = V m c main_v1 _
  congr 1
  funext a
  apply Fin.ext
  match a with
  | ⟨0, _⟩ => show win0_1.index t 0 * 256 + 1 * p.val = t.val * 256 + p.val; rw [hi.2.2.1]; omega
  | ⟨1, _⟩ => show win0_1.index t 1 * 1024 + 1 * j.val = j.val; rw [hi.2.2.2.1]; omega

/-- Every weight window's block is the whole staged array. -/
theorem blk2_at (c : Dev nD) (t : Fin cfg0.N) (j : Fin 1024) (k : Fin 16) :
    (iblk m c 2 t : Vec Ideal S1024x16 .bf16) (ix2 j k) = a2 m c (ix2 j k) := by
  have hi := idx_facts t
  unfold iblk
  rw [View.read_apply]
  show V m c main_v2 _ = V m c main_v2 _
  congr 1
  funext a
  apply Fin.ext
  match a with
  | ⟨0, _⟩ => show win0_2.index t 0 * 1024 + 1 * j.val = j.val; rw [hi.2.2.2.2.1]; omega
  | ⟨1, _⟩ => show win0_2.index t 1 * 16 + 1 * k.val = k.val; rw [hi.2.2.2.2.2.1]; omega
theorem blk3_at (c : Dev nD) (t : Fin cfg0.N) (k : Fin 16) (d : Fin 1024) :
    (iblk m c 3 t : Vec Ideal S16x1024 .bf16) (ix2 k d) = a3 m c (ix2 k d) := by
  have hi := idx_facts t
  unfold iblk
  rw [View.read_apply]
  show V m c main_v4 _ = V m c main_v4 _
  congr 1
  funext a
  apply Fin.ext
  match a with
  | ⟨0, _⟩ => show win0_3.index t 0 * 16 + 1 * k.val = k.val; rw [hi.2.2.2.2.2.2.1]; omega
  | ⟨1, _⟩ => show win0_3.index t 1 * 1024 + 1 * d.val = d.val; rw [hi.2.2.2.2.2.2.2.1]; omega
theorem blk4_at (c : Dev nD) (t : Fin cfg0.N) (j : Fin 1024) (u : Fin 1) :
    (iblk m c 4 t : Vec Ideal S1024x1 .bf16) (ix2 j u) = a4 m c (ix2 j u) := by
  have hi := idx_facts t
  unfold iblk
  rw [View.read_apply]
  show V m c main_v6 _ = V m c main_v6 _
  congr 1
  funext a
  apply Fin.ext
  match a with
  | ⟨0, _⟩ => show win0_4.index t 0 * 1024 + 1 * j.val = j.val; rw [hi.2.2.2.2.2.2.2.2.1]; omega
  | ⟨1, _⟩ => show win0_4.index t 1 * 1 + 1 * u.val = u.val; rw [hi.2.2.2.2.2.2.2.2.2.1]; omega
theorem blk5_at (c : Dev nD) (t : Fin cfg0.N) (j d : Fin 1024) :
    (iblk m c 5 t : Vec Ideal S1024x1024 .bf16) (ix2 j d) = a5 m c (ix2 j d) := by
  have hi := idx_facts t
  unfold iblk
  rw [View.read_apply]
  show V m c main_v8 _ = V m c main_v8 _
  congr 1
  funext a
  apply Fin.ext
  match a with
  | ⟨0, _⟩ => show win0_5.index t 0 * 1024 + 1 * j.val = j.val; rw [hi.2.2.2.2.2.2.2.2.2.2.1]; omega
  | ⟨1, _⟩ => show win0_5.index t 1 * 1024 + 1 * d.val = d.val; rw [hi.2.2.2.2.2.2.2.2.2.2.2.1]; omega
theorem blk6_at (c : Dev nD) (t : Fin cfg0.N) (u : Fin 1) (d : Fin 1024) :
    (iblk m c 6 t : Vec Ideal S1x1024 .f32) (ix2 u d) = a6 m c (ix2 u d) := by
  have hi := idx_facts t
  unfold iblk
  rw [View.read_apply]
  show V m c main_v11 _ = V m c main_v11 _
  congr 1
  funext a
  apply Fin.ext
  match a with
  | ⟨0, _⟩ => show win0_6.index t 0 * 1 + 1 * u.val = u.val; rw [hi.2.2.2.2.2.2.2.2.2.2.2.2.1]; omega
  | ⟨1, _⟩ => show win0_6.index t 1 * 1024 + 1 * d.val = d.val; rw [hi.2.2.2.2.2.2.2.2.2.2.2.2.2.1]; omega
theorem blk7_at (c : Dev nD) (t : Fin cfg0.N) (j d : Fin 1024) :
    (iblk m c 7 t : Vec Ideal S1024x1024 .bf16) (ix2 j d) = a7 m c (ix2 j d) := by
  have hi := idx_facts t
  unfold iblk
  rw [View.read_apply]
  show V m c main_v10 _ = V m c main_v10 _
  congr 1
  funext a
  apply Fin.ext
  match a with
  | ⟨0, _⟩ => show win0_7.index t 0 * 1024 + 1 * j.val = j.val; rw [hi.2.2.2.2.2.2.2.2.2.2.2.2.2.2.1]; omega
  | ⟨1, _⟩ => show win0_7.index t 1 * 1024 + 1 * d.val = d.val; rw [hi.2.2.2.2.2.2.2.2.2.2.2.2.2.2.2.1]; omega
theorem blk8_at (c : Dev nD) (t : Fin cfg0.N) (u : Fin 1) (d : Fin 1024) :
    (iblk m c 8 t : Vec Ideal S1x1024 .f32) (ix2 u d) = a8 m c (ix2 u d) := by
  have hi := idx_facts t
  unfold iblk
  rw [View.read_apply]
  show V m c main_v12 _ = V m c main_v12 _
  congr 1
  funext a
  apply Fin.ext
  match a with
  | ⟨0, _⟩ => show win0_8.index t 0 * 1 + 1 * u.val = u.val; rw [hi.2.2.2.2.2.2.2.2.2.2.2.2.2.2.2.2.1]; omega
  | ⟨1, _⟩ => show win0_8.index t 1 * 1024 + 1 * d.val = d.val; rw [hi.2.2.2.2.2.2.2.2.2.2.2.2.2.2.2.2.2.1]; omega

/-! ### What a point writes back -/

/-- One point, over blocks and arrays of literal types: if the blocks are the rows `256·tv …` of the two flat arrays
    and the whole weight arrays, the body's store at (p, q) is the flat result at row 256·tv + p. -/
theorem point_eq (x0 x1 : Vec Ideal S256x1024 .f32) (x2 : Vec Ideal S1024x16 .bf16) (x3 : Vec Ideal S16x1024 .bf16)
    (x4 : Vec Ideal S1024x1 .bf16) (x5 : Vec Ideal S1024x1024 .bf16) (x6 : Vec Ideal S1x1024 .f32)
    (x7 : Vec Ideal S1024x1024 .bf16) (x8 : Vec Ideal S1x1024 .f32)
    (A0 A1 : S32768x1024.Idx → EReal) (A2 : S1024x16.Idx → EReal) (A3 : S16x1024.Idx → EReal) (A4 : S1024x1.Idx → EReal)
    (A5 : S1024x1024.Idx → EReal) (A6 : S1x1024.Idx → EReal) (A7 : S1024x1024.Idx → EReal) (A8 : S1x1024.Idx → EReal)
    (tv : ℕ) (hrow : ∀ p : Fin 256, tv * 256 + p.val < 32768)
    (h0 : ∀ (p : Fin 256) (j : Fin 1024), x0 (ix2 p j) = A0 (ix2 (⟨tv * 256 + p.val, hrow p⟩ : Fin 32768) j))
    (h1 : ∀ (p : Fin 256) (j : Fin 1024), x1 (ix2 p j) = A1 (ix2 (⟨tv * 256 + p.val, hrow p⟩ : Fin 32768) j))
    (h2 : ∀ (j : Fin 1024) (k : Fin 16), x2 (ix2 j k) = A2 (ix2 j k))
    (h3 : ∀ (k : Fin 16) (d : Fin 1024), x3 (ix2 k d) = A3 (ix2 k d))
    (h4 : ∀ (j : Fin 1024) (u : Fin 1), x4 (ix2 j u) = A4 (ix2 j u))
    (h5 : ∀ (j d : Fin 1024), x5 (ix2 j d) = A5 (ix2 j d))
    (h6 : ∀ (u : Fin 1) (d : Fin 1024), x6 (ix2 u d) = A6 (ix2 u d))
    (h7 : ∀ (j d : Fin 1024), x7 (ix2 j d) = A7 (ix2 j d))
    (h8 : ∀ (u : Fin 1) (d : Fin 1024), x8 (ix2 u d) = A8 (ix2 u d))
    (p : Fin 256) (q : Fin 1024) :
    out0_9 (F := Ideal) x0 x1 x2 x3 x4 x5 x6 x7 x8 (ix2 p q)
      = flatAt A0 A1 A2 A3 A4 A5 A6 A7 A8 ⟨tv * 256 + p.val, hrow p⟩ q := by
  rw [pay_at]
  unfold flatAt
  simp only [h0, h1, h2, h3, h4, h5, h6, h7, h8]

/-- WHAT POINT `t` WRITES BACK is block `t` of the flat result. -/
theorem flushed_eq (c : Dev nD) (t : Fin cfg0.N) :
    (dats m 0 c).flushed 9 t = ((cfg0.win 9).blk t).view.read (Elt Ideal) (flat m c) := by
  have hi := idx_facts t
  show (cfg0.win 9).cut (grid0.coords t) ((dats m 0 c).after 9 t) = _
  rw [after0_9]
  funext y
  have hy0 : (y 0).val < 256 := (y 0).isLt
  have hy1 : (y 1).val < 1024 := (y 1).isLt
  have hy : (y : S256x1024.Idx) = ix2 (⟨(y 0).val, hy0⟩ : Fin 256) (⟨(y 1).val, hy1⟩ : Fin 1024) :=
    funext fun a => by match a with | ⟨0, _⟩ => rfl | ⟨1, _⟩ => rfl
  show out0_9 (iblk m c 0 t) (iblk m c 1 t) (iblk m c 2 t) (iblk m c 3 t) (iblk m c 4 t) (iblk m c 5 t) (iblk m c 6 t)
      (iblk m c 7 t) (iblk m c 8 t) y = flat m c (((cfg0.win 9).blk t).view.emb y)
  refine (congrArg (out0_9 (F := Ideal) (iblk m c 0 t) (iblk m c 1 t) (iblk m c 2 t) (iblk m c 3 t) (iblk m c 4 t) (iblk m c 5 t)
      (iblk m c 6 t) (iblk m c 7 t) (iblk m c 8 t)) hy).trans ?_
  refine (point_eq (iblk m c 0 t) (iblk m c 1 t) (iblk m c 2 t) (iblk m c 3 t) (iblk m c 4 t) (iblk m c 5 t) (iblk m c 6 t)
      (iblk m c 7 t) (iblk m c 8 t) (a0 m c) (a1 m c) (a2 m c) (a3 m c) (a4 m c) (a5 m c) (a6 m c) (a7 m c) (a8 m c)
      t.val (rows_lt t) (blk0_at m c t) (blk1_at m c t) (blk2_at m c t) (blk3_at m c t) (blk4_at m c t) (blk5_at m c t)
      (blk6_at m c t) (blk7_at m c t) (blk8_at m c t) ⟨(y 0).val, hy0⟩ ⟨(y 1).val, hy1⟩).trans ?_
  have e0 : (⟨t.val * 256 + (y 0).val, rows_lt t ⟨(y 0).val, hy0⟩⟩ : Fin 32768)
      = ⟨((((cfg0.win 9).blk t).view.emb y) 0).val, ((((cfg0.win 9).blk t).view.emb y) 0).isLt⟩ :=
    Fin.ext (by
      show t.val * 256 + (y 0).val = win0_9.index t 0 * 256 + 1 * (y 0).val
      rw [hi.2.2.2.2.2.2.2.2.2.2.2.2.2.2.2.2.2.2.1]; omega)
  have e1 : (⟨(y 1).val, hy1⟩ : Fin 1024)
      = ⟨((((cfg0.win 9).blk t).view.emb y) 1).val, ((((cfg0.win 9).blk t).view.emb y) 1).isLt⟩ :=
    Fin.ext (by
      show (y 1).val = win0_9.index t 1 * 1024 + 1 * (y 1).val
      rw [hi.2.2.2.2.2.2.2.2.2.2.2.2.2.2.2.2.2.2.2]; omega)
  exact congrArg₂ (flatAt (a0 m c) (a1 m c) (a2 m c) (a3 m c) (a4 m c) (a5 m c) (a6 m c) (a7 m c) (a8 m c)) e0 e1

/-! ### The blocks tile the flat result -/

/-- Row `r` of the flat result is in the block of point `r / 256`. -/
theorem cover (i : S32768x1024.Idx) :
    ∃ t : Fin cfg0.N, (cfg0.win 9).flush t = true ∧ i ∈ ((cfg0.win 9).blk t).view.set := by
  have hN : cfg0.N = 128 := N_0
  have h0 : (i 0).val < 32768 := (i 0).isLt
  have h1 : (i 1).val < 1024 := (i 1).isLt
  have ht : (i 0).val / 256 < cfg0.N := by omega
  have hi := idx_facts ⟨(i 0).val / 256, ht⟩
  refine ⟨⟨(i 0).val / 256, ht⟩, flush0_9 _, ?_⟩
  show i ∈ ((View.whole main_v13).slice (win0_9.rect ⟨(i 0).val / 256, ht⟩)).set
  rw [View.set_slice_whole, Rect.mem_set_unit]
  intro a
  match a with
  | ⟨0, _⟩ =>
    show win0_9.index ⟨(i 0).val / 256, ht⟩ 0 * 256 ≤ (i 0).val ∧ (i 0).val < win0_9.index ⟨(i 0).val / 256, ht⟩ 0 * 256 + 256
    rw [hi.2.2.2.2.2.2.2.2.2.2.2.2.2.2.2.2.2.2.1]
    show (i 0).val / 256 * 256 ≤ (i 0).val ∧ (i 0).val < (i 0).val / 256 * 256 + 256
    omega
  | ⟨1, _⟩ =>
    show win0_9.index ⟨(i 0).val / 256, ht⟩ 1 * 1024 ≤ (i 1).val ∧ (i 1).val < win0_9.index ⟨(i 0).val / 256, ht⟩ 1 * 1024 + 1024
    rw [hi.2.2.2.2.2.2.2.2.2.2.2.2.2.2.2.2.2.2.2]
    omega

/-- The flat result after the region. -/
theorem final (c : Dev nD) : (dats m 0 c).arrAt 9 cfg0.N = flat m c :=
  (dats m 0 c).arrAt_eq_of_cover 9 (flat m c) (fun t _ => flushed_eq m c t) cover

end Cert.KernelSide

end
-- ==== Proof.KernelRun.lean ====
/-
  The kernel program's run, read: its result is the whole-array row form of its arguments.

  After the region the flat result is reshaped to [8, 4096, 1024]: entry (b, s, d) of the result is entry
  (b·4096 + s, d) of the flat result, which is the row form of flat row b·4096 + s of the staged arrays, and those
  are row (b, s) of the velocity and of the position and the weights read by row and column.
-/
import proofs.«116041_j2370821948216_1_alg».proof.Proof.KernelBlocks

noncomputable section

namespace Cert.KernelSide

open Cert.KernelIdeal Cert.KernelIdeal.Gen Idealize.ShloMosaic Idealize.ShloMosaic.TcCoe Idealize.SL.Sem Idealize.ShloMosaic.ValueIdx
open Idealize.ShloMosaic.Pipeline (Dat)
open Cert.RowForm

variable (m : (ℓ : Loc nD τ sig) → Buf (Elt Ideal) ℓ) (ρ : Dev nD → PrngReg)

/-- The kernel program's result on core `c`, as a function of its arguments there. -/
abbrev result (c : Dev nD) : S8x4096x1024.Idx → EReal :=
  whole (arg0 m c) (arg1 m c) (arg2 m c) (arg3 m c) (arg4 m c) (arg5 m c) (arg6 m c) (arg7 m c) (arg8 m c)

/-- The flat array the lines after the region find is the flat result. -/
theorem flat_found (c : Dev nD) :
    (Pipeline.withArrays (cfgs 0).spec c (V0 m c) (fun w => (dats m 0 c).arrAt w (cfgs 0).N) (Proc.devRef .tc main_v13)
      : S32768x1024.Idx → EReal) = flat m c :=
  (Pipeline.withArrays_arr spec0 launch0.win.arr_inj c _ _ 9).trans (final m c)

/-- The result buffer after the lines that follow the region is the reshape of that flat array. -/
theorem tail_term (c : Dev nD) :
    (Pipeline.afterTail₀ cfgs (dats m) 0 (V0 m) [hostOps1] c main_v14 : S8x4096x1024.Idx → EReal)
      = shapeCast S8x4096x1024
          (Pipeline.withArrays (cfgs 0).spec c (V0 m c) (fun w => (dats m 0 c).arrAt w (cfgs 0).N) (Proc.devRef .tc main_v13)
            : S32768x1024.Idx → EReal) shapeCasts_S32768x1024_S8x4096x1024 := by
  unfold Pipeline.afterTail₀
  show StableHlo.after hostOps1 _ (Proc.devRef .tc main_v14) = _
  after_results
  rfl

/-- Over arrays of literal types: if flat row `r` of the two staged arrays is row (b, s) of the two arguments and the
    staged weights are the arguments' transposes, the flat result at (r, d) is the whole-array form at (b, s, d). -/
theorem flatAt_eq_whole (A0 A1 : S32768x1024.Idx → EReal) (A2 : S1024x16.Idx → EReal) (A3 : S16x1024.Idx → EReal)
    (A4 : S1024x1.Idx → EReal) (A5 : S1024x1024.Idx → EReal) (A6 : S1x1024.Idx → EReal) (A7 : S1024x1024.Idx → EReal)
    (A8 : S1x1024.Idx → EReal)
    (B0 B1 : S8x4096x1024.Idx → EReal) (B2 B3 : S1024x16.Idx → EReal) (B4 : S1x1024.Idx → EReal) (B5 : S1024x1024.Idx → EReal)
    (B6 : S1024.Idx → EReal) (B7 : S1024x1024.Idx → EReal) (B8 : S1024.Idx → EReal)
    (b : Fin 8) (s : Fin 4096) (r : Fin 32768)
    (h0 : ∀ j : Fin 1024, A0 (ix2 r j) = B0 (ix3 b s j)) (h1 : ∀ j : Fin 1024, A1 (ix2 r j) = B1 (ix3 b s j))
    (h2 : ∀ (j : Fin 1024) (k : Fin 16), A2 (ix2 j k) = B2 (ix2 j k))
    (h3 : ∀ (k : Fin 16) (d : Fin 1024), A3 (ix2 k d) = B3 (ix2 d k))
    (h4 : ∀ j : Fin 1024, A4 (ix2 j (0 : Fin 1)) = B4 (ix2 (0 : Fin 1) j))
    (h5 : ∀ j d : Fin 1024, A5 (ix2 j d) = B5 (ix2 d j))
    (h6 : ∀ d : Fin 1024, A6 (ix2 (0 : Fin 1) d) = B6 (ix1 d))
    (h7 : ∀ j d : Fin 1024, A7 (ix2 j d) = B7 (ix2 d j))
    (h8 : ∀ d : Fin 1024, A8 (ix2 (0 : Fin 1) d) = B8 (ix1 d)) (d : Fin 1024) :
    flatAt A0 A1 A2 A3 A4 A5 A6 A7 A8 r d = whole B0 B1 B2 B3 B4 B5 B6 B7 B8 (ix3 b s d) := by
  unfold flatAt
  simp only [h0, h1, h2, h3, h4, h5, h6, h7, h8]
  rfl

/-- Flat row b·4096 + s of the flat result at column d is the row form of row (b, s) of the arguments. -/
theorem flat_at (c : Dev nD) (b : Fin 8) (s : Fin 4096) (d : Fin 1024) :
    flat m c (ix2 (⟨b.val * 4096 + s.val, by omega⟩ : Fin 32768) d) = result m c (ix3 b s d) :=
  flatAt_eq_whole (a0 m c) (a1 m c) (a2 m c) (a3 m c) (a4 m c) (a5 m c) (a6 m c) (a7 m c) (a8 m c)
    (arg0 m c) (arg1 m c) (arg2 m c) (arg3 m c) (arg4 m c) (arg5 m c) (arg6 m c) (arg7 m c) (arg8 m c)
    b s ⟨b.val * 4096 + s.val, by omega⟩ (a0_at m c b s) (a1_at m c b s) (a2_at m c) (a3_at m c) (a4_at m c) (a5_at m c)
    (a6_at m c) (a7_at m c) (a8_at m c) d

/-- So the result buffer ends at the whole-array row form. -/
theorem tail_eq (c : Dev nD) :
    (Pipeline.afterTail₀ cfgs (dats m) 0 (V0 m) [hostOps1] c main_v14 : S8x4096x1024.Idx → EReal) = result m c := by
  rw [tail_term, flat_found]
  funext i
  obtain ⟨b, s, d, rfl⟩ : ∃ (b : Fin 8) (s : Fin 4096) (d : Fin 1024), i = ix3 b s d := ⟨i 0, i 1, i 2, eq_ix3 i⟩
  rw [shapeCast_apply (flat m c) shapeCasts_S32768x1024_S8x4096x1024 (ix3 b s d)
    (ix2 (⟨b.val * 4096 + s.val, by omega⟩ : Fin 32768) d) (by rw [Shape.rowMajor_val_two, Shape.rowMajor_val_three]; rfl)]
  exact flat_at m c b s d

/-- THE RUN, read: every weakly fair execution of the kernel program terminates with its result at the whole-array row form
    of its arguments, the arguments unchanged. -/
theorem run : θ_run defs (onTc (τ := τ) (main (F := Ideal))) ⟨m, fun _ => 0, ρ⟩ (fun r => ∀ c : Dev nD,
      r.2.mem ((c.tc : Thread nD τ).loc main_v14) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v14 (Pipeline.mem_restRefs_of main_v14 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelSide

end
-- ==== Proof.lean ====
/-
  The kernel computes what the reference computes, over the extended reals.

  Both programs evaluate, for every row (b, s) of the velocity v and of the position x and every column d,

    ( clip₅( (∑ₖ pₖ² · s · W d k) · (1 + π) ) · σ(⟨x, Gw d⟩ + gb d)  +  σ(⟨x, Fw d⟩ + fb d) · v d )
      · (1 + ½ · tanh(⟨v, v⟩ / 1024)) · (1 + 9 · [π > 0.8]),

  pₖ = ⟨v, U · k⟩, s = 1 / (1 + ‖p‖), π = σ(⟨x, Vw⟩), σ the logistic function (Proof/RowForm.lean). The reference
  does so on the [8, 4096, 1024] arrays (Proof/RefSide.lean reads its result entry by entry); the kernel program
  flattens the two big arrays to [32768, 1024], transposes the weights, runs the body on 128 blocks of 256 rows and
  reshapes the flat result back (Proof/KernelPay.lean: what the body stores at a row; Proof/KernelHost.lean: the
  staged arrays as the arguments; Proof/KernelBlocks.lean: the 128 blocks tile the flat result; Proof/KernelRun.lean:
  the run). At the ideal reading every operation is exact, a change of float format is the identity and a sum does
  not depend on its order, so the two results are the same extended reals; no input needs to be finite for that.
  The three frames are the generated ones (the reference's is its run with the result dropped); the idealization
  rewrote nothing, so its claim is trivial.
-/
import proofs.«116041_j2370821948216_1_alg».proof.Defs
import proofs.«116041_j2370821948216_1_alg».proof.Proof.Gen.Kernel
import proofs.«116041_j2370821948216_1_alg».proof.Proof.Gen.Kernel.Skeleton
import proofs.«116041_j2370821948216_1_alg».proof.Proof.Gen.Kernel.Launch
import proofs.«116041_j2370821948216_1_alg».proof.Proof.Gen.Kernel.Points
import proofs.«116041_j2370821948216_1_alg».proof.Proof.Gen.Kernel.Frame
import proofs.«116041_j2370821948216_1_alg».proof.Proof.Gen.KernelIdeal
import proofs.«116041_j2370821948216_1_alg».proof.Proof.Gen.KernelIdeal.Skeleton
import proofs.«116041_j2370821948216_1_alg».proof.Proof.Gen.KernelIdeal.Launch
import proofs.«116041_j2370821948216_1_alg».proof.Proof.Gen.KernelIdeal.Points
import proofs.«116041_j2370821948216_1_alg».proof.Proof.Gen.KernelIdeal.Frame
import proofs.«116041_j2370821948216_1_alg».proof.Proof.Gen.ReferenceIdeal
import proofs.«116041_j2370821948216_1_alg».proof.Proof.Gen.Pre_finite_inputs
import proofs.«116041_j2370821948216_1_alg».proof.Proof.Gen.ReferenceIdeal.Run
import proofs.«116041_j2370821948216_1_alg».proof.Proof.Gen.ReferenceIdeal.Read
import proofs.«116041_j2370821948216_1_alg».proof.Proof.RefSide
import proofs.«116041_j2370821948216_1_alg».proof.Proof.KernelRun
import Idealize.ShloMosaic.Adequacy
import Idealize.ShloMosaic.Init

noncomputable section

namespace Cert.Proof

open Idealize.ShloMosaic Idealize.SL.Sem

/-- The word-level kernel program runs and keeps its arguments. -/
theorem frame_k : @Cert.frame_Kernel Cert.Kernel.Gen.facts Cert.Pre_finite_inputs.Gen.facts :=
  fun m ρ _ => Cert.Kernel.Gen.frame m ρ

/-- So does the kernel program at the ideal reading. -/
theorem frame_ki : @Cert.frame_KernelIdeal Cert.KernelIdeal.Gen.facts Cert.Pre_finite_inputs.Gen.facts :=
  fun m ρ _ => Cert.KernelIdeal.Gen.frame m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories that agree on the nine arguments both programs end with the whole-array row form of those arguments. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelSide.result m c, Cert.KernelSide.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v65_eq, Cert.RefSide.whole_eq, (hagree c).1, (hagree c).2.1, (hagree c).2.2.1,
    (hagree c).2.2.2.1, (hagree c).2.2.2.2.1, (hagree c).2.2.2.2.2.1, (hagree c).2.2.2.2.2.2.1, (hagree c).2.2.2.2.2.2.2.1,
    (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
